-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S1 : Shape := ⟨1, ![1]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S4x2048x4096 .f32) (main_arg1 : FVec F S11008x4096 .f32) (main_arg2 : FVec F S1 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S4x2048x4096 : Shape := ⟨3, ![4, 2048, 4096]⟩
abbrev S11008x4096 : Shape := ⟨2, ![11008, 4096]⟩
abbrev S1 : Shape := ⟨1, ![1]⟩
abbrev S8192x4096 : Shape := ⟨2, ![8192, 4096]⟩
abbrev S_ : Shape := ⟨0, ![]⟩
abbrev S11008 : Shape := ⟨1, ![11008]⟩
abbrev S11008x1 : Shape := ⟨2, ![11008, 1]⟩
abbrev S4096 : Shape := ⟨1, ![4096]⟩
abbrev S1x4096 : Shape := ⟨2, ![1, 4096]⟩
abbrev S8192 : Shape := ⟨1, ![8192]⟩
abbrev S8192x1 : Shape := ⟨2, ![8192, 1]⟩
abbrev S1x11008 : Shape := ⟨2, ![1, 11008]⟩
abbrev S8192x11008 : Shape := ⟨2, ![8192, 11008]⟩
abbrev S2048x1024 : Shape := ⟨2, ![2048, 1024]⟩
abbrev S256x1024 : Shape := ⟨2, ![256, 1024]⟩
abbrev S2048x1 : Shape := ⟨2, ![2048, 1]⟩
abbrev S1x256 : Shape := ⟨2, ![1, 256]⟩
abbrev S2048x256 : Shape := ⟨2, ![2048, 256]⟩
abbrev S4x2048x11008 : Shape := ⟨3, ![4, 2048, 11008]⟩

abbrev nBuf : Space → Nat
  | .hbm => 66
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S1, .f32⟩
  | .hbm, ⟨3, _⟩ => ⟨S8192x4096, .f32⟩
  | .hbm, ⟨4, _⟩ => ⟨S_, .f32⟩
  | .hbm, ⟨5, _⟩ => ⟨S11008x4096, .f32⟩
  | .hbm, ⟨6, _⟩ => ⟨S_, .f32⟩
  | .hbm, ⟨7, _⟩ => ⟨S11008, .f32⟩
  | .hbm, ⟨8, _⟩ => ⟨S_, .f32⟩
  | .hbm, ⟨9, _⟩ => ⟨S11008, .f32⟩
  | .hbm, ⟨10, _⟩ => ⟨S11008, .f32⟩
  | .hbm, ⟨11, _⟩ => ⟨S11008x1, .f32⟩
  | .hbm, ⟨12, _⟩ => ⟨S11008x4096, .f32⟩
  | .hbm, ⟨13, _⟩ => ⟨S11008x4096, .f32⟩
  | .hbm, ⟨14, _⟩ => ⟨S11008x4096, .f32⟩
  | .hbm, ⟨15, _⟩ => ⟨S8192x4096, .f32⟩
  | .hbm, ⟨16, _⟩ => ⟨S8192x4096, .f32⟩
  | .hbm, ⟨17, _⟩ => ⟨S8192x4096, .i1⟩
  | .hbm, ⟨18, _⟩ => ⟨S_, .i1⟩
  | .hbm, ⟨19, _⟩ => ⟨S4096, .i1⟩
  | .hbm, ⟨20, _⟩ => ⟨S1x4096, .i1⟩
  | .hbm, ⟨21, _⟩ => ⟨S_, .f32⟩
  | .hbm, ⟨22, _⟩ => ⟨S_, .f32⟩
  | .hbm, ⟨23, _⟩ => ⟨S8192x4096, .i1⟩
  | .hbm, ⟨24, _⟩ => ⟨S8192x4096, .f32⟩
  | .hbm, ⟨25, _⟩ => ⟨S8192x4096, .f32⟩
  | .hbm, ⟨26, _⟩ => ⟨S1x4096, .i1⟩
  | .hbm, ⟨27, _⟩ => ⟨S_, .f32⟩
  | .hbm, ⟨28, _⟩ => ⟨S_, .f32⟩
  | .hbm, ⟨29, _⟩ => ⟨S8192x4096, .i1⟩
  | .hbm, ⟨30, _⟩ => ⟨S8192x4096, .f32⟩
  | .hbm, ⟨31, _⟩ => ⟨S8192x4096, .f32⟩
  | .hbm, ⟨32, _⟩ => ⟨S11008x1, .f32⟩
  | .hbm, ⟨33, _⟩ => ⟨S11008x4096, .f32⟩
  | .hbm, ⟨34, _⟩ => ⟨S11008x4096, .f32⟩
  | .hbm, ⟨35, _⟩ => ⟨S1x4096, .i1⟩
  | .hbm, ⟨36, _⟩ => ⟨S1x4096, .f32⟩
  | .hbm, ⟨37, _⟩ => ⟨S11008x4096, .f32⟩
  | .hbm, ⟨38, _⟩ => ⟨S11008x4096, .f32⟩
  | .hbm, ⟨39, _⟩ => ⟨S1x4096, .i1⟩
  | .hbm, ⟨40, _⟩ => ⟨S_, .f32⟩
  | .hbm, ⟨41, _⟩ => ⟨S_, .f32⟩
  | .hbm, ⟨42, _⟩ => ⟨S11008x4096, .i1⟩
  | .hbm, ⟨43, _⟩ => ⟨S11008x4096, .f32⟩
  | .hbm, ⟨44, _⟩ => ⟨S11008x4096, .f32⟩
  | .hbm, ⟨45, _⟩ => ⟨S8192x4096, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S8192x1, .f32⟩
  | .hbm, ⟨55, _⟩ => ⟨S8192x4096, .f32⟩
  | .hbm, ⟨56, _⟩ => ⟨S8192x4096, .f32⟩
  | .hbm, ⟨57, _⟩ => ⟨S8192x4096, .f32⟩
  | .hbm, ⟨58, _⟩ => ⟨S8192x4096, .bf16⟩
  | .hbm, ⟨59, _⟩ => ⟨S11008x4096, .bf16⟩
  | .hbm, ⟨60, _⟩ => ⟨S8192x4096, .bf16⟩
  | .hbm, ⟨61, _⟩ => ⟨S11008x4096, .bf16⟩
  | .hbm, ⟨62, _⟩ => ⟨S8192x1, .f32⟩
  | .hbm, ⟨63, _⟩ => ⟨S1x11008, .f32⟩
  | .hbm, ⟨64, _⟩ => ⟨S8192x11008, .f32⟩
  | .hbm, ⟨65, _⟩ => ⟨S4x2048x11008, .f32⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x1024, .bf16⟩
  | .local _ .vmem, ⟨5, _⟩ => ⟨S2048x1024, .bf16⟩
  | .local _ .vmem, ⟨6, _⟩ => ⟨S256x1024, .bf16⟩
  | .local _ .vmem, ⟨7, _⟩ => ⟨S256x1024, .bf16⟩
  | .local _ .vmem, ⟨8, _⟩ => ⟨S2048x1, .f32⟩
  | .local _ .vmem, ⟨9, _⟩ => ⟨S2048x1, .f32⟩
  | .local _ .vmem, ⟨10, _⟩ => ⟨S1x256, .f32⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 43, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  shapeCasts_S4x2048x4096_S8192x4096 : S4x2048x4096.ShapeCasts S8192x4096
  shapeCasts_S1_S_ : S1.ShapeCasts S_
  reducesTo_S11008x4096_S11008_d1 : S11008x4096.ReducesTo [1] S11008
  h_S_ : 0 < S_.numel
  bcast_S_S11008 : S_.BroadcastsInDim S11008 (![] : Fin 0 → Fin S11008.rank)
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S_S8192x4096 : S_.BroadcastsInDim S8192x4096 (![] : Fin 0 → Fin S8192x4096.rank)
  reducesTo_S8192x4096_S4096_d0 : S8192x4096.ReducesTo [0] S4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S1x4096_S11008x4096_0_1 : S1x4096.BroadcastsInDim S11008x4096 (![0, 1] : Fin 2 → Fin S11008x4096.rank)
  bcast_S_S11008x4096 : S_.BroadcastsInDim S11008x4096 (![] : Fin 0 → Fin S11008x4096.rank)
  reducesTo_S8192x4096_S8192_d1 : S8192x4096.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bitsLt_bf16_f32 : FTy.bits .bf16 < FTy.bits .f32
  shapeCasts_S8192_S8192x1 : S8192.ShapeCasts S8192x1
  shapeCasts_S11008_S1x11008 : S11008.ShapeCasts S1x11008
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x256 : S2048x1.Broadcasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  shapeCasts_S8192x11008_S4x2048x11008 : S8192x11008.ShapeCasts S4x2048x11008
  dot_S2048x1024_S256x1024_S2048x256_1_1_0_0_n_n_wf : DotDims.WF S2048x1024 S256x1024 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S11008x4096.size a
  hwx0_1 : ∀ i : grid0.Coords, EltTy.bits .bf16 = 32 ∨ (Rect.block (s := S11008x4096) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x4096.size a
  hwx0_2 : ∀ i : grid0.Coords, EltTy.bits .bf16 = 32 ∨ (Rect.block (s := S8192x4096) S2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S11008x4096.size a
  hwx0_3 : ∀ i : grid0.Coords, EltTy.bits .bf16 = 32 ∨ (Rect.block (s := S11008x4096) S256x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S8192x1.size a
  hwx0_4 : ∀ i : grid0.Coords, EltTy.bits .f32 = 32 ∨ (Rect.block (s := S8192x1) S2048x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x11008.size a
  hwx0_5 : ∀ i : grid0.Coords, EltTy.bits .f32 = 32 ∨ (Rect.block (s := S1x11008) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S8192x11008.size a
  hwx0_6 : ∀ i : grid0.Coords, EltTy.bits .f32 = 32 ∨ (Rect.block (s := S8192x11008) S2048x256.size (cc0_transform_6 i) (hinb0_6 i)).WholeWords (EltTy.packing .f32)

variable [Facts₀]

def dot_S2048x1024_S256x1024_S2048x256_1_1_0_0_n_n : DotDims S2048x1024 S256x1024 S2048x256 where
  lhsContracting := [1]
  rhsContracting := [1]
  lhsNonContracting := [0]
  rhsNonContracting := [0]
  lhsBatch := []
  rhsBatch := []
  wf := dot_S2048x1024_S256x1024_S2048x256_1_1_0_0_n_n_wf

abbrev win0_0 : Pipeline.Window sig grid0 :=
  Pipeline.Window.ofSpec (Memref.whole main_v37) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v41) S2048x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v42) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v43) S2048x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S1 : Shape := ⟨1, ![1]⟩
abbrev S8192x4096 : Shape := ⟨2, ![8192, 4096]⟩
abbrev S_ : Shape := ⟨0, ![]⟩
abbrev S11008 : Shape := ⟨1, ![11008]⟩
abbrev S11008x1 : Shape := ⟨2, ![11008, 1]⟩
abbrev S4096 : Shape := ⟨1, ![4096]⟩
abbrev S1x4096 : Shape := ⟨2, ![1, 4096]⟩
abbrev S4096x11008 : Shape := ⟨2, ![4096, 11008]⟩
abbrev S8192x11008 : Shape := ⟨2, ![8192, 11008]⟩
abbrev S8192 : Shape := ⟨1, ![8192]⟩
abbrev S8192x1 : Shape := ⟨2, ![8192, 1]⟩
abbrev S1x11008 : Shape := ⟨2, ![1, 11008]⟩
abbrev S4x2048x11008 : Shape := ⟨3, ![4, 2048, 11008]⟩

abbrev nBuf : Space → Nat
  | .hbm => 70
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S1, .f32⟩
  | .hbm, ⟨3, _⟩ => ⟨S8192x4096, .f32⟩
  | .hbm, ⟨4, _⟩ => ⟨S_, .f32⟩
  | .hbm, ⟨5, _⟩ => ⟨S11008x4096, .f32⟩
  | .hbm, ⟨6, _⟩ => ⟨S_, .f32⟩
  | .hbm, ⟨7, _⟩ => ⟨S11008, .f32⟩
  | .hbm, ⟨8, _⟩ => ⟨S_, .f32⟩
  | .hbm, ⟨9, _⟩ => ⟨S11008, .f32⟩
  | .hbm, ⟨10, _⟩ => ⟨S11008, .f32⟩
  | .hbm, ⟨11, _⟩ => ⟨S11008x1, .f32⟩
  | .hbm, ⟨12, _⟩ => ⟨S11008x4096, .f32⟩
  | .hbm, ⟨13, _⟩ => ⟨S11008x4096, .f32⟩
  | .hbm, ⟨14, _⟩ => ⟨S11008x4096, .f32⟩
  | .hbm, ⟨15, _⟩ => ⟨S8192x4096, .f32⟩
  | .hbm, ⟨16, _⟩ => ⟨S8192x4096, .f32⟩
  | .hbm, ⟨17, _⟩ => ⟨S8192x4096, .i1⟩
  | .hbm, ⟨18, _⟩ => ⟨S_, .i1⟩
  | .hbm, ⟨19, _⟩ => ⟨S4096, .i1⟩
  | .hbm, ⟨20, _⟩ => ⟨S1x4096, .i1⟩
  | .hbm, ⟨21, _⟩ => ⟨S_, .f32⟩
  | .hbm, ⟨22, _⟩ => ⟨S_, .f32⟩
  | .hbm, ⟨23, _⟩ => ⟨S8192x4096, .i1⟩
  | .hbm, ⟨24, _⟩ => ⟨S8192x4096, .f32⟩
  | .hbm, ⟨25, _⟩ => ⟨S8192x4096, .f32⟩
  | .hbm, ⟨26, _⟩ => ⟨S1x4096, .i1⟩
  | .hbm, ⟨27, _⟩ => ⟨S_, .f32⟩
  | .hbm, ⟨28, _⟩ => ⟨S_, .f32⟩
  | .hbm, ⟨29, _⟩ => ⟨S8192x4096, .i1⟩
  | .hbm, ⟨30, _⟩ => ⟨S8192x4096, .f32⟩
  | .hbm, ⟨31, _⟩ => ⟨S8192x4096, .f32⟩
  | .hbm, ⟨32, _⟩ => ⟨S11008x1, .f32⟩
  | .hbm, ⟨33, _⟩ => ⟨S11008x4096, .f32⟩
  | .hbm, ⟨34, _⟩ => ⟨S11008x4096, .f32⟩
  | .hbm, ⟨35, _⟩ => ⟨S1x4096, .i1⟩
  | .hbm, ⟨36, _⟩ => ⟨S1x4096, .f32⟩
  | .hbm, ⟨37, _⟩ => ⟨S11008x4096, .f32⟩
  | .hbm, ⟨38, _⟩ => ⟨S11008x4096, .f32⟩
  | .hbm, ⟨39, _⟩ => ⟨S1x4096, .i1⟩
  | .hbm, ⟨40, _⟩ => ⟨S_, .f32⟩
  | .hbm, ⟨41, _⟩ => ⟨S_, .f32⟩
  | .hbm, ⟨42, _⟩ => ⟨S11008x4096, .i1⟩
  | .hbm, ⟨43, _⟩ => ⟨S11008x4096, .f32⟩
  | .hbm, ⟨44, _⟩ => ⟨S11008x4096, .f32⟩
  | .hbm, ⟨45, _⟩ => ⟨S4096x11008, .f32⟩
  | .hbm, ⟨46, _⟩ => ⟨S8192x11008, .f32⟩
  | .hbm, ⟨47, _⟩ => ⟨S8192x4096, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S8192x1, .f32⟩
  | .hbm, ⟨57, _⟩ => ⟨S8192x4096, .f32⟩
  | .hbm, ⟨58, _⟩ => ⟨S8192x4096, .f32⟩
  | .hbm, ⟨59, _⟩ => ⟨S8192x4096, .f32⟩
  | .hbm, ⟨60, _⟩ => ⟨S4096x11008, .f32⟩
  | .hbm, ⟨61, _⟩ => ⟨S8192x11008, .f32⟩
  | .hbm, ⟨62, _⟩ => ⟨S8192x1, .f32⟩
  | .hbm, ⟨63, _⟩ => ⟨S8192x11008, .f32⟩
  | .hbm, ⟨64, _⟩ => ⟨S8192x11008, .f32⟩
  | .hbm, ⟨65, _⟩ => ⟨S1x11008, .f32⟩
  | .hbm, ⟨66, _⟩ => ⟨S8192x11008, .f32⟩
  | .hbm, ⟨67, _⟩ => ⟨S8192x11008, .f32⟩
  | .hbm, ⟨68, _⟩ => ⟨S8192x11008, .f32⟩
  | .hbm, ⟨69, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]

class Facts₀ : Prop where
  shapeCasts_S4x2048x4096_S8192x4096 : S4x2048x4096.ShapeCasts S8192x4096
  shapeCasts_S1_S_ : S1.ShapeCasts S_
  reducesTo_S11008x4096_S11008_d1 : S11008x4096.ReducesTo [1] S11008
  h_S_ : 0 < S_.numel
  bcast_S_S11008 : S_.BroadcastsInDim S11008 (![] : Fin 0 → Fin S11008.rank)
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S_S8192x4096 : S_.BroadcastsInDim S8192x4096 (![] : Fin 0 → Fin S8192x4096.rank)
  reducesTo_S8192x4096_S4096_d0 : S8192x4096.ReducesTo [0] S4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S1x4096_S11008x4096_0_1 : S1x4096.BroadcastsInDim S11008x4096 (![0, 1] : Fin 2 → Fin S11008x4096.rank)
  bcast_S_S11008x4096 : S_.BroadcastsInDim S11008x4096 (![] : Fin 0 → Fin S11008x4096.rank)
  transposes_S11008x4096_S4096x11008_1_0 : S11008x4096.Transposes [1, 0] S4096x11008
  reducesTo_S8192x4096_S8192_d1 : S8192x4096.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bcast_S8192x1_S8192x11008_0_1 : S8192x1.BroadcastsInDim S8192x11008 (![0, 1] : Fin 2 → Fin S8192x11008.rank)
  bcast_S11008_S1x11008_1 : S11008.BroadcastsInDim S1x11008 (![1] : Fin 1 → Fin S1x11008.rank)
  bcast_S1x11008_S8192x11008_0_1 : S1x11008.BroadcastsInDim S8192x11008 (![0, 1] : Fin 2 → Fin S8192x11008.rank)
  shapeCasts_S8192x11008_S4x2048x11008 : S8192x11008.ShapeCasts S4x2048x11008
  dot_S8192x4096_S4096x11008_S8192x11008_1_0_0_1_n_n_wf : DotDims.WF S8192x4096 S4096x11008 S8192x11008 [1] [0] [0] [1] [] []

variable [Facts₀]

def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf

class Facts : Prop extends Facts₀ where

variable [Facts]
-- ==== Proof.KernelPieces.lean ====
/-
  What each of the body's three control cases leaves in the two accumulators it carries from point to point, and in the
  output block, as the body's own arithmetic of what it loaded:
    * at a point with k = 0 both accumulators are first set to zero, so each ends at  0-block + (its block product);
    * at a point with 0 < k the accumulator found there, xs, ends at  xs + (its block product);
    * at a point with k = 3 the output block is, besides,  out + (raw · row scale) · column scale  of the two accumulators
      AS JUST UPDATED — the body reads them back after storing them.
  Each case's stores cover the buffer whole, so the buffer's contents are the last store's value, and a load that follows a
  store of the whole buffer reads that store's value.
-/
import proofs.«107277_j49220325212290_1_alg».proof.Proof.Gen.KernelIdeal.Frame
import Idealize.ShloMosaic.Lib.Pipeline.Value
import Idealize.ShloMosaic.Lib.Tactic

set_option maxRecDepth 16384

noncomputable section

namespace Cert.KernelIdeal.Val

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- k = 0: the first accumulator is reset, then the outlier block product is added. -/
theorem scr0_A (c : Dev nD) (i : grid0.Coords) (a3 : Memref sig .tc .vmem S2048x1024 .bf16) (h3 : a3.IsWhole) (a4 : Memref sig .tc .vmem S256x1024 .bf16) (h4 : a4.IsWhole) (a5 : Memref sig .tc .vmem S2048x1024 .bf16) (h5 : a5.IsWhole) (a6 : Memref sig .tc .vmem S256x1024 .bf16) (h6 : a6.IsWhole) (a7 : Memref sig .tc .vmem S2048x1 .f32) (h7 : a7.IsWhole) (a8 : Memref sig .tc .vmem S1x256 .f32) (h8 : a8.IsWhole) (a9 : Memref sig .tc .vmem S2048x256 .f32) (h9 : a9.IsWhole) (a10 : Memref sig .tc .vmem S2048x256 .f32) (h10 : a10.IsWhole) (a11 : Memref sig .tc .vmem S2048x256 .f32) (h11 : a11.IsWhole) (hc0 : cond0_0 i) (hc1 : ¬cond0_1 i) (x0 : Vec F S2048x1024 .bf16) (x1 : Vec F S256x1024 .bf16) (x2 : Vec F S2048x1024 .bf16) (x3 : Vec F S256x1024 .bf16) (x4 : Vec F S2048x1 .f32) (x5 : Vec F S1x256 .f32) :
    sout0_A_0 c i a3 h3 a4 h4 a5 h5 a6 h6 a7 h7 a8 h8 a9 h9 a10 h10 a11 h11 hc0 hc1 x0 x1 x2 x3 x4 x5 = k0_pay3 (k0_pay1 (F := F)) x0 x1 := by
  unfold sout0_A_0
  rw [View.read_writes_eq_canon _ _ _ (scover0_A_0 c i a3 h3 a4 h4 a5 h5 a6 h6 a7 h7 a8 h8 a9 h9 a10 h10 a11 h11 hc0 hc1 x0 x1 x2 x3 x4 x5)]
  unfold kernelRun0_A
  dsimp only
  sl_unfold_words
  rw [View.canon_cons_unit_zero (S := S2048x256) hz, View.readCov_unit_zero (S := S2048x256) _ hz]
  simp only [View.readAt_eq_ld, h3.read_unread, h4.read_unread, h5.read_unread, h6.read_unread, h7.read_unread, h8.read_unread, h9.read_unread, h10.read_unread, h11.read_unread, View.ld_unit_zero (S := S2048x256) hz, View.ld_unit_zero (S := S2048x1024) hz, View.ld_unit_zero (S := S256x1024) hz, View.ld_unit_zero (S := S2048x1) hz, View.ld_unit_zero (S := S1x256) hz]

/-- k = 0: the second accumulator is reset, then the quantized block product is added. -/
theorem scr1_A (c : Dev nD) (i : grid0.Coords) (a3 : Memref sig .tc .vmem S2048x1024 .bf16) (h3 : a3.IsWhole) (a4 : Memref sig .tc .vmem S256x1024 .bf16) (h4 : a4.IsWhole) (a5 : Memref sig .tc .vmem S2048x1024 .bf16) (h5 : a5.IsWhole) (a6 : Memref sig .tc .vmem S256x1024 .bf16) (h6 : a6.IsWhole) (a7 : Memref sig .tc .vmem S2048x1 .f32) (h7 : a7.IsWhole) (a8 : Memref sig .tc .vmem S1x256 .f32) (h8 : a8.IsWhole) (a9 : Memref sig .tc .vmem S2048x256 .f32) (h9 : a9.IsWhole) (a10 : Memref sig .tc .vmem S2048x256 .f32) (h10 : a10.IsWhole) (a11 : Memref sig .tc .vmem S2048x256 .f32) (h11 : a11.IsWhole) (hc0 : cond0_0 i) (hc1 : ¬cond0_1 i) (x0 : Vec F S2048x1024 .bf16) (x1 : Vec F S256x1024 .bf16) (x2 : Vec F S2048x1024 .bf16) (x3 : Vec F S256x1024 .bf16) (x4 : Vec F S2048x1 .f32) (x5 : Vec F S1x256 .f32) :
    sout0_A_1 c i a3 h3 a4 h4 a5 h5 a6 h6 a7 h7 a8 h8 a9 h9 a10 h10 a11 h11 hc0 hc1 x0 x1 x2 x3 x4 x5 = k0_pay4 (k0_pay2 (F := F)) x2 x3 := by
  unfold sout0_A_1
  rw [View.read_writes_eq_canon _ _ _ (scover0_A_1 c i a3 h3 a4 h4 a5 h5 a6 h6 a7 h7 a8 h8 a9 h9 a10 h10 a11 h11 hc0 hc1 x0 x1 x2 x3 x4 x5)]
  unfold kernelRun0_A
  dsimp only
  sl_unfold_words
  rw [View.canon_cons_unit_zero (S := S2048x256) hz, View.readCov_unit_zero (S := S2048x256) _ hz]
  simp only [View.readAt_eq_ld, h3.read_unread, h4.read_unread, h5.read_unread, h6.read_unread, h7.read_unread, h8.read_unread, h9.read_unread, h10.read_unread, h11.read_unread, View.ld_unit_zero (S := S2048x256) hz, View.ld_unit_zero (S := S2048x1024) hz, View.ld_unit_zero (S := S256x1024) hz, View.ld_unit_zero (S := S2048x1) hz, View.ld_unit_zero (S := S1x256) hz]

/-- 0 < k < 3: the outlier block product is added to what the point before left. -/
theorem scr0_B (c : Dev nD) (i : grid0.Coords) (a3 : Memref sig .tc .vmem S2048x1024 .bf16) (h3 : a3.IsWhole) (a4 : Memref sig .tc .vmem S256x1024 .bf16) (h4 : a4.IsWhole) (a5 : Memref sig .tc .vmem S2048x1024 .bf16) (h5 : a5.IsWhole) (a6 : Memref sig .tc .vmem S256x1024 .bf16) (h6 : a6.IsWhole) (a7 : Memref sig .tc .vmem S2048x1 .f32) (h7 : a7.IsWhole) (a8 : Memref sig .tc .vmem S1x256 .f32) (h8 : a8.IsWhole) (a9 : Memref sig .tc .vmem S2048x256 .f32) (h9 : a9.IsWhole) (a10 : Memref sig .tc .vmem S2048x256 .f32) (h10 : a10.IsWhole) (a11 : Memref sig .tc .vmem S2048x256 .f32) (h11 : a11.IsWhole) (hc0 : ¬cond0_0 i) (hc1 : ¬cond0_1 i) (x0 : Vec F S2048x1024 .bf16) (x1 : Vec F S256x1024 .bf16) (x2 : Vec F S2048x1024 .bf16) (x3 : Vec F S256x1024 .bf16) (x4 : Vec F S2048x1 .f32) (x5 : Vec F S1x256 .f32) (xs0 : Vec F S2048x256 .f32) (xs1 : Vec F S2048x256 .f32) :
    sout0_B_0 c i a3 h3 a4 h4 a5 h5 a6 h6 a7 h7 a8 h8 a9 h9 a10 h10 a11 h11 hc0 hc1 x0 x1 x2 x3 x4 x5 xs0 xs1 = k0_pay3 xs0 x0 x1 := by
  unfold sout0_B_0
  rw [View.read_writes_eq_canon _ _ _ (scover0_B_0 c i a3 h3 a4 h4 a5 h5 a6 h6 a7 h7 a8 h8 a9 h9 a10 h10 a11 h11 hc0 hc1 x0 x1 x2 x3 x4 x5 xs0 xs1)]
  unfold kernelRun0_B
  dsimp only
  sl_unfold_words
  rw [View.canon_unit_zero hz]
  simp only [View.readAt_eq_ld, h3.read_unread, h4.read_unread, h5.read_unread, h6.read_unread, h7.read_unread, h8.read_unread, h9.read_unread, h10.read_unread, h11.read_unread, View.ld_unit_zero (S := S2048x256) hz, View.ld_unit_zero (S := S2048x1024) hz, View.ld_unit_zero (S := S256x1024) hz, View.ld_unit_zero (S := S2048x1) hz, View.ld_unit_zero (S := S1x256) hz]

/-- 0 < k < 3: the quantized block product is added to what the point before left. -/
theorem scr1_B (c : Dev nD) (i : grid0.Coords) (a3 : Memref sig .tc .vmem S2048x1024 .bf16) (h3 : a3.IsWhole) (a4 : Memref sig .tc .vmem S256x1024 .bf16) (h4 : a4.IsWhole) (a5 : Memref sig .tc .vmem S2048x1024 .bf16) (h5 : a5.IsWhole) (a6 : Memref sig .tc .vmem S256x1024 .bf16) (h6 : a6.IsWhole) (a7 : Memref sig .tc .vmem S2048x1 .f32) (h7 : a7.IsWhole) (a8 : Memref sig .tc .vmem S1x256 .f32) (h8 : a8.IsWhole) (a9 : Memref sig .tc .vmem S2048x256 .f32) (h9 : a9.IsWhole) (a10 : Memref sig .tc .vmem S2048x256 .f32) (h10 : a10.IsWhole) (a11 : Memref sig .tc .vmem S2048x256 .f32) (h11 : a11.IsWhole) (hc0 : ¬cond0_0 i) (hc1 : ¬cond0_1 i) (x0 : Vec F S2048x1024 .bf16) (x1 : Vec F S256x1024 .bf16) (x2 : Vec F S2048x1024 .bf16) (x3 : Vec F S256x1024 .bf16) (x4 : Vec F S2048x1 .f32) (x5 : Vec F S1x256 .f32) (xs0 : Vec F S2048x256 .f32) (xs1 : Vec F S2048x256 .f32) :
    sout0_B_1 c i a3 h3 a4 h4 a5 h5 a6 h6 a7 h7 a8 h8 a9 h9 a10 h10 a11 h11 hc0 hc1 x0 x1 x2 x3 x4 x5 xs0 xs1 = k0_pay4 xs1 x2 x3 := by
  unfold sout0_B_1
  rw [View.read_writes_eq_canon _ _ _ (scover0_B_1 c i a3 h3 a4 h4 a5 h5 a6 h6 a7 h7 a8 h8 a9 h9 a10 h10 a11 h11 hc0 hc1 x0 x1 x2 x3 x4 x5 xs0 xs1)]
  unfold kernelRun0_B
  dsimp only
  sl_unfold_words
  rw [View.canon_unit_zero hz]
  simp only [View.readAt_eq_ld, h3.read_unread, h4.read_unread, h5.read_unread, h6.read_unread, h7.read_unread, h8.read_unread, h9.read_unread, h10.read_unread, h11.read_unread, View.ld_unit_zero (S := S2048x256) hz, View.ld_unit_zero (S := S2048x1024) hz, View.ld_unit_zero (S := S256x1024) hz, View.ld_unit_zero (S := S2048x1) hz, View.ld_unit_zero (S := S1x256) hz]

/-- k = 3: the outlier block product is added to what the point before left. -/
theorem scr0_C (c : Dev nD) (i : grid0.Coords) (a3 : Memref sig .tc .vmem S2048x1024 .bf16) (h3 : a3.IsWhole) (a4 : Memref sig .tc .vmem S256x1024 .bf16) (h4 : a4.IsWhole) (a5 : Memref sig .tc .vmem S2048x1024 .bf16) (h5 : a5.IsWhole) (a6 : Memref sig .tc .vmem S256x1024 .bf16) (h6 : a6.IsWhole) (a7 : Memref sig .tc .vmem S2048x1 .f32) (h7 : a7.IsWhole) (a8 : Memref sig .tc .vmem S1x256 .f32) (h8 : a8.IsWhole) (a9 : Memref sig .tc .vmem S2048x256 .f32) (h9 : a9.IsWhole) (a10 : Memref sig .tc .vmem S2048x256 .f32) (h10 : a10.IsWhole) (a11 : Memref sig .tc .vmem S2048x256 .f32) (h11 : a11.IsWhole) (hc0 : ¬cond0_0 i) (hc1 : cond0_1 i) (x0 : Vec F S2048x1024 .bf16) (x1 : Vec F S256x1024 .bf16) (x2 : Vec F S2048x1024 .bf16) (x3 : Vec F S256x1024 .bf16) (x4 : Vec F S2048x1 .f32) (x5 : Vec F S1x256 .f32) (xs0 : Vec F S2048x256 .f32) (xs1 : Vec F S2048x256 .f32) :
    sout0_C_0 c i a3 h3 a4 h4 a5 h5 a6 h6 a7 h7 a8 h8 a9 h9 a10 h10 a11 h11 hc0 hc1 x0 x1 x2 x3 x4 x5 xs0 xs1 = k0_pay3 xs0 x0 x1 := by
  unfold sout0_C_0
  rw [View.read_writes_eq_canon _ _ _ (scover0_C_0 c i a3 h3 a4 h4 a5 h5 a6 h6 a7 h7 a8 h8 a9 h9 a10 h10 a11 h11 hc0 hc1 x0 x1 x2 x3 x4 x5 xs0 xs1)]
  unfold kernelRun0_C
  dsimp only
  sl_unfold_words
  rw [View.canon_unit_zero hz]
  simp only [View.readAt_eq_ld, h3.read_unread, h4.read_unread, h5.read_unread, h6.read_unread, h7.read_unread, h8.read_unread, h9.read_unread, h10.read_unread, h11.read_unread, View.ld_unit_zero (S := S2048x256) hz, View.ld_unit_zero (S := S2048x1024) hz, View.ld_unit_zero (S := S256x1024) hz, View.ld_unit_zero (S := S2048x1) hz, View.ld_unit_zero (S := S1x256) hz]

/-- k = 3: the quantized block product is added to what the point before left. -/
theorem scr1_C (c : Dev nD) (i : grid0.Coords) (a3 : Memref sig .tc .vmem S2048x1024 .bf16) (h3 : a3.IsWhole) (a4 : Memref sig .tc .vmem S256x1024 .bf16) (h4 : a4.IsWhole) (a5 : Memref sig .tc .vmem S2048x1024 .bf16) (h5 : a5.IsWhole) (a6 : Memref sig .tc .vmem S256x1024 .bf16) (h6 : a6.IsWhole) (a7 : Memref sig .tc .vmem S2048x1 .f32) (h7 : a7.IsWhole) (a8 : Memref sig .tc .vmem S1x256 .f32) (h8 : a8.IsWhole) (a9 : Memref sig .tc .vmem S2048x256 .f32) (h9 : a9.IsWhole) (a10 : Memref sig .tc .vmem S2048x256 .f32) (h10 : a10.IsWhole) (a11 : Memref sig .tc .vmem S2048x256 .f32) (h11 : a11.IsWhole) (hc0 : ¬cond0_0 i) (hc1 : cond0_1 i) (x0 : Vec F S2048x1024 .bf16) (x1 : Vec F S256x1024 .bf16) (x2 : Vec F S2048x1024 .bf16) (x3 : Vec F S256x1024 .bf16) (x4 : Vec F S2048x1 .f32) (x5 : Vec F S1x256 .f32) (xs0 : Vec F S2048x256 .f32) (xs1 : Vec F S2048x256 .f32) :
    sout0_C_1 c i a3 h3 a4 h4 a5 h5 a6 h6 a7 h7 a8 h8 a9 h9 a10 h10 a11 h11 hc0 hc1 x0 x1 x2 x3 x4 x5 xs0 xs1 = k0_pay4 xs1 x2 x3 := by
  unfold sout0_C_1
  rw [View.read_writes_eq_canon _ _ _ (scover0_C_1 c i a3 h3 a4 h4 a5 h5 a6 h6 a7 h7 a8 h8 a9 h9 a10 h10 a11 h11 hc0 hc1 x0 x1 x2 x3 x4 x5 xs0 xs1)]
  unfold kernelRun0_C
  dsimp only
  sl_unfold_words
  rw [View.canon_unit_zero hz]
  simp only [View.readAt_eq_ld, h3.read_unread, h4.read_unread, h5.read_unread, h6.read_unread, h7.read_unread, h8.read_unread, h9.read_unread, h10.read_unread, h11.read_unread, View.ld_unit_zero (S := S2048x256) hz, View.ld_unit_zero (S := S2048x1024) hz, View.ld_unit_zero (S := S256x1024) hz, View.ld_unit_zero (S := S2048x1) hz, View.ld_unit_zero (S := S1x256) hz]

/-- k = 3: the output block is the closing expression of the two accumulators as this point leaves them. -/
theorem out_C (c : Dev nD) (i : grid0.Coords) (a3 : Memref sig .tc .vmem S2048x1024 .bf16) (h3 : a3.IsWhole) (a4 : Memref sig .tc .vmem S256x1024 .bf16) (h4 : a4.IsWhole) (a5 : Memref sig .tc .vmem S2048x1024 .bf16) (h5 : a5.IsWhole) (a6 : Memref sig .tc .vmem S256x1024 .bf16) (h6 : a6.IsWhole) (a7 : Memref sig .tc .vmem S2048x1 .f32) (h7 : a7.IsWhole) (a8 : Memref sig .tc .vmem S1x256 .f32) (h8 : a8.IsWhole) (a9 : Memref sig .tc .vmem S2048x256 .f32) (h9 : a9.IsWhole) (a10 : Memref sig .tc .vmem S2048x256 .f32) (h10 : a10.IsWhole) (a11 : Memref sig .tc .vmem S2048x256 .f32) (h11 : a11.IsWhole) (hc0 : ¬cond0_0 i) (hc1 : cond0_1 i) (x0 : Vec F S2048x1024 .bf16) (x1 : Vec F S256x1024 .bf16) (x2 : Vec F S2048x1024 .bf16) (x3 : Vec F S256x1024 .bf16) (x4 : Vec F S2048x1 .f32) (x5 : Vec F S1x256 .f32) (xs0 : Vec F S2048x256 .f32) (xs1 : Vec F S2048x256 .f32) :
    out0_C_6 c i a3 h3 a4 h4 a5 h5 a6 h6 a7 h7 a8 h8 a9 h9 a10 h10 a11 h11 hc0 hc1 x0 x1 x2 x3 x4 x5 xs0 xs1 = k0_pay5 (k0_pay3 xs0 x0 x1) (k0_pay4 xs1 x2 x3) x4 x5 := by
  unfold out0_C_6
  rw [View.read_writes_eq_canon _ _ _ (cover0_C_6 c i a3 h3 a4 h4 a5 h5 a6 h6 a7 h7 a8 h8 a9 h9 a10 h10 a11 h11 hc0 hc1 x0 x1 x2 x3 x4 x5 xs0 xs1)]
  unfold kernelRun0_C
  dsimp only
  sl_unfold_words
  rw [View.canon_unit_zero hz]
  simp only [View.readCov_unit_zero (S := S2048x256) _ hz, View.readAt_eq_ld, h3.read_unread, h4.read_unread, h5.read_unread, h6.read_unread, h7.read_unread, h8.read_unread, h9.read_unread, h10.read_unread, h11.read_unread, View.ld_unit_zero (S := S2048x256) hz, View.ld_unit_zero (S := S2048x1024) hz, View.ld_unit_zero (S := S256x1024) hz, View.ld_unit_zero (S := S2048x1) hz, View.ld_unit_zero (S := S1x256) hz]

end Cert.KernelIdeal.Val

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.LibDense.lean ====
/-
  The product of an [M, K] array with the TRANSPOSE of an [N, K] array (a linear layer's x · wᵀ, the weight stored
  output-major), as one whole-array function over the extended reals: entry (r, c) is the sum over k of x (r, k) · w (c, k).
  Two computations are that function, for any extents and any dimension-numbers record contracting the left operand's
  axis 1 against the right operand's axis 0:
    * a block product into the zero accumulator whose operands were first narrowed to bf16 (a change of float format is
      the identity on the extended reals) and whose right operand was transposed;
    * the host's dot_general against the transposed weight.
  With it, a bias row added along the rows and a bias column multiplied along the columns, read at an index.
-/
import Idealize.ShloMosaic.PureOps.Ideal.Laws
import Idealize.ShloMosaic.Lib.ValueIdx
import Idealize.ShloMosaic.Lib.ValueLayout
import Idealize.ShloMosaic.Lib.Pipeline.Value
import proofs.«107277_j49220325212290_1_alg».proof.Proof.LibDotSum

noncomputable section

namespace Cert.Lib

open Idealize.ShloMosaic Idealize.ShloMosaic.ValueIdx

variable {M K N : Nat}

/-- x · wᵀ: entry (r, c) is the sum over k of x (r, k) · w (c, k). -/
def mulT (x : FVec Ideal ⟨2, ![M, K]⟩ .f32) (w : FVec Ideal ⟨2, ![N, K]⟩ .f32) : FVec Ideal ⟨2, ![M, N]⟩ .f32 :=
  fun i => ∑ k : Fin K, x (ix2 (i 0) k) * w (ix2 (i 1) k)

theorem mulT_apply (x : FVec Ideal ⟨2, ![M, K]⟩ .f32) (w : FVec Ideal ⟨2, ![N, K]⟩ .f32) (r : Fin M) (c : Fin N) :
    mulT x w (ix2 r c) = ∑ k : Fin K, x (ix2 r k) * w (ix2 c k) := rfl

/-- Row r of x · wᵀ depends on row r of x only: if two left operands agree on their rows r and r', so do the products. -/
theorem mulT_row_congr {M' : Nat} (x : FVec Ideal ⟨2, ![M, K]⟩ .f32) (x' : FVec Ideal ⟨2, ![M', K]⟩ .f32)
    (w : FVec Ideal ⟨2, ![N, K]⟩ .f32) (r : Fin M) (r' : Fin M') (h : ∀ k : Fin K, x (ix2 r k) = x' (ix2 r' k)) (c : Fin N) :
    mulT x w (ix2 r c) = mulT x' w (ix2 r' c) := by
  rw [mulT_apply, mulT_apply]
  exact Finset.sum_congr rfl fun k _ => by rw [h k]

/-- The block product of the narrowed operands, the right one transposed, into the zero accumulator, is x · wᵀ. -/
theorem matmul_trunc_transpose (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32)
    (hb : FTy.bf16.bits < FTy.f32.bits) (hb' : FTy.bf16.bits < FTy.f32.bits)
    (ht : (⟨2, ![N, K]⟩ : Shape).Transposes [1, 0] ⟨2, ![K, N]⟩) :
    matmul d prec (truncf .bf16 x hb) (transpose ⟨2, ![K, N]⟩ [1, 0] (truncf .bf16 w hb') ht)
        (constant ⟨2, ![M, N]⟩ .f32 0x00000000#32) = mulT x w := by
  funext i
  obtain ⟨r, c, rfl⟩ : ∃ (r : Fin M) (c : Fin N), i = ix2 r c := ⟨i 0, i 1, eq_ix2 i⟩
  rw [matmul_rc_apply d hlc hrc hln hrn hlb hrb, mulT_apply]
  refine Finset.sum_congr rfl fun k _ => ?_
  rw [transpose_ix2_apply]
  rfl

/-- The host's product against the transposed weight is x · wᵀ. -/
theorem dotGeneral_transpose (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32)
    (ht : (⟨2, ![N, K]⟩ : Shape).Transposes [1, 0] ⟨2, ![K, N]⟩) :
    Host.dotGeneral d prec x (transpose ⟨2, ![K, N]⟩ [1, 0] w ht) = mulT x w := by
  funext i
  obtain ⟨r, c, rfl⟩ : ∃ (r : Fin M) (c : Fin N), i = ix2 r c := ⟨i 0, i 1, eq_ix2 i⟩
  rw [dotGeneral_rc_apply d hlc hrc hln hrn hlb hrb, mulT_apply]
  refine Finset.sum_congr rfl fun k _ => ?_
  rw [transpose_ix2_apply]

/-- An [M, 1] column broadcast over N columns reads, at (r, c), the column's entry of row r. -/
theorem broadcastTo_a1_ab_apply {α : Type} (v : (⟨2, ![M, 1]⟩ : Shape).Idx → α)
    (h : (⟨2, ![M, 1]⟩ : Shape).Broadcasts ⟨2, ![M, N]⟩) (r : Fin M) (c : Fin N) :
    broadcastTo ⟨2, ![M, N]⟩ v h (ix2 r c) = v (ix2 r (0 : Fin 1)) := by
  refine broadcastTo_apply v h (ix2 r c) (ix2 r (0 : Fin 1)) fun ax => ?_
  match ax with
  | ⟨0, _⟩ =>
    show r.val = if M = 1 then 0 else r.val
    split
    · have := r.isLt; omega
    · rfl
  | ⟨1, _⟩ => rfl

/-- An [M] array cast to an [M, 1] column reads, at (r, u), the operand at r, whatever the unit coordinate u. -/
theorem shapeCast_a_a1_apply {α : Type} (x : (⟨1, ![M]⟩ : Shape).Idx → α)
    (h : (⟨1, ![M]⟩ : Shape).ShapeCasts ⟨2, ![M, 1]⟩) (r : Fin M) (u : Fin 1) :
    shapeCast ⟨2, ![M, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-! ## A linear layer with a bias row, and two of them around a tanh -/

/-- x · wᵀ + b: the bias, a [1, N] row, added along every row. -/
def affine (x : FVec Ideal ⟨2, ![M, K]⟩ .f32) (w : FVec Ideal ⟨2, ![N, K]⟩ .f32) (b : FVec Ideal ⟨2, ![1, N]⟩ .f32) :
    FVec Ideal ⟨2, ![M, N]⟩ .f32 :=
  fun i => mulT x w i + b (ix2 (0 : Fin 1) (i 1))

theorem affine_apply (x : FVec Ideal ⟨2, ![M, K]⟩ .f32) (w : FVec Ideal ⟨2, ![N, K]⟩ .f32) (b : FVec Ideal ⟨2, ![1, N]⟩ .f32)
    (r : Fin M) (c : Fin N) :
    affine x w b (ix2 r c) = (∑ k : Fin K, x (ix2 r k) * w (ix2 c k)) + b (ix2 (0 : Fin 1) c) := rfl

/-- Row r of a linear layer's output depends on row r of its input only. -/
theorem affine_row_congr {M' : Nat} (x : FVec Ideal ⟨2, ![M, K]⟩ .f32) (x' : FVec Ideal ⟨2, ![M', K]⟩ .f32)
    (w : FVec Ideal ⟨2, ![N, K]⟩ .f32) (b : FVec Ideal ⟨2, ![1, N]⟩ .f32) (r : Fin M) (r' : Fin M')
    (h : ∀ k : Fin K, x (ix2 r k) = x' (ix2 r' k)) (c : Fin N) :
    affine x w b (ix2 r c) = affine x' w b (ix2 r' c) := by
  rw [affine_apply, affine_apply]
  exact congrArg (· + b (ix2 (0 : Fin 1) c)) (Finset.sum_congr rfl fun k _ => by rw [h k])

/-- tanh of every entry. -/
def tanhA {s : Shape} (y : FVec Ideal s .f32) : FVec Ideal s .f32 := fun i => Ideal.tanh (y i)

theorem tanhA_apply {s : Shape} (y : FVec Ideal s .f32) (i : s.Idx) : tanhA y i = Ideal.tanh (y i) := rfl

/-- The device's vector tanh and the host's are that map on the extended reals. -/
theorem tanh_eq_tanhA {s : Shape} (y : FVec Ideal s .f32) : tanh y = tanhA y := rfl
theorem hostTanh_eq_tanhA {s : Shape} (y : FVec Ideal s .f32) : Host.tanh y = tanhA y := rfl

/-- A two-layer network (layer, tanh, layer) is row-local: its output's row r depends on its input's row r only. -/
theorem affine_tanh_affine_row_congr {M' H : Nat} (x : FVec Ideal ⟨2, ![M, K]⟩ .f32) (x' : FVec Ideal ⟨2, ![M', K]⟩ .f32)
    (w₁ : FVec Ideal ⟨2, ![H, K]⟩ .f32) (b₁ : FVec Ideal ⟨2, ![1, H]⟩ .f32)
    (w₂ : FVec Ideal ⟨2, ![N, H]⟩ .f32) (b₂ : FVec Ideal ⟨2, ![1, N]⟩ .f32) (r : Fin M) (r' : Fin M')
    (h : ∀ k : Fin K, x (ix2 r k) = x' (ix2 r' k)) (c : Fin N) :
    affine (tanhA (affine x w₁ b₁)) w₂ b₂ (ix2 r c) = affine (tanhA (affine x' w₁ b₁)) w₂ b₂ (ix2 r' c) :=
  affine_row_congr _ _ w₂ b₂ r r' (fun k => congrArg Ideal.tanh (affine_row_congr x x' w₁ b₁ r r' h k)) c

/-- The device's form of the layer: the block product of the narrowed operands into the zero accumulator, plus the bias
    row broadcast over the rows. -/
theorem addf_matmul_bias (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32) (b : FVec Ideal ⟨2, ![1, N]⟩ .f32)
    (hb : FTy.bf16.bits < FTy.f32.bits) (hb' : FTy.bf16.bits < FTy.f32.bits)
    (ht : (⟨2, ![N, K]⟩ : Shape).Transposes [1, 0] ⟨2, ![K, N]⟩)
    (hbc : (⟨2, ![1, N]⟩ : Shape).Broadcasts ⟨2, ![M, N]⟩) :
    addf (matmul d prec (truncf .bf16 x hb) (transpose ⟨2, ![K, N]⟩ [1, 0] (truncf .bf16 w hb') ht)
        (constant ⟨2, ![M, N]⟩ .f32 0x00000000#32)) (broadcastTo ⟨2, ![M, N]⟩ b hbc) = affine x w b := by
  rw [matmul_trunc_transpose d hlc hrc hln hrn hlb hrb]
  funext i
  obtain ⟨r, c, rfl⟩ : ∃ (r : Fin M) (c : Fin N), i = ix2 r c := ⟨i 0, i 1, eq_ix2 i⟩
  rw [addf_apply, broadcastTo_1b_ab_apply]
  rfl

/-- An [N] vector laid along the columns of an [M, N] array through a [1, N] row reads, at (r, c), the vector at c. -/
theorem broadcastInDim_row_apply {α : Type} (h₁ : (⟨1, ![N]⟩ : Shape).BroadcastsInDim ⟨2, ![1, N]⟩ ![1])
    (h₂ : (⟨2, ![1, N]⟩ : Shape).BroadcastsInDim ⟨2, ![M, N]⟩ ![0, 1]) (v : (⟨1, ![N]⟩ : Shape).Idx → α)
    (r : Fin M) (c : Fin N) :
    broadcastInDim ⟨2, ![M, N]⟩ ![0, 1] h₂ (broadcastInDim ⟨2, ![1, N]⟩ ![1] h₁ v) (ix2 r c) = v (ix1 c) := by
  refine (broadcastInDim_apply ![0, 1] h₂ _ (ix2 r c) (ix2 (0 : Fin 1) c) fun a => ?_).trans
    (broadcastInDim_apply ![1] h₁ v (ix2 (0 : Fin 1) c) (ix1 c) fun a => ?_)
  · match a with
    | ⟨0, _⟩ => rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- An [M] vector laid along the rows of an [M, N] array through an [M, 1] column reads, at (r, c), the vector at r. -/
theorem broadcastInDim_col_apply {α : Type} (h₁ : (⟨1, ![M]⟩ : Shape).BroadcastsInDim ⟨2, ![M, 1]⟩ ![0])
    (h₂ : (⟨2, ![M, 1]⟩ : Shape).BroadcastsInDim ⟨2, ![M, N]⟩ ![0, 1]) (v : (⟨1, ![M]⟩ : Shape).Idx → α)
    (r : Fin M) (c : Fin N) :
    broadcastInDim ⟨2, ![M, N]⟩ ![0, 1] h₂ (broadcastInDim ⟨2, ![M, 1]⟩ ![0] h₁ v) (ix2 r c) = v (ix1 r) := by
  refine (broadcastInDim_apply ![0, 1] h₂ _ (ix2 r c) (ix2 r (0 : Fin 1)) fun a => ?_).trans
    (broadcastInDim_apply ![0] h₁ v (ix2 r (0 : Fin 1)) (ix1 r) fun a => ?_)
  · match a with
    | ⟨0, _⟩ =>
      show r.val = if M = 1 then 0 else r.val
      split
      · have := r.isLt; omega
      · rfl
    | ⟨1, _⟩ => rfl
  · match a with
    | ⟨0, _⟩ =>
      show r.val = if M = 1 then 0 else r.val
      split
      · have := r.isLt; omega
      · rfl

/-- The host's form of the layer: the product against the transposed weight, plus the [N] bias laid along the columns;
    the bias row is the [N] vector cast to [1, N]. -/
theorem addf_dotGeneral_bias (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32) (b : FVec Ideal ⟨1, ![N]⟩ .f32)
    (ht : (⟨2, ![N, K]⟩ : Shape).Transposes [1, 0] ⟨2, ![K, N]⟩)
    (h₁ : (⟨1, ![N]⟩ : Shape).BroadcastsInDim ⟨2, ![1, N]⟩ ![1])
    (h₂ : (⟨2, ![1, N]⟩ : Shape).BroadcastsInDim ⟨2, ![M, N]⟩ ![0, 1])
    (hc : (⟨1, ![N]⟩ : Shape).ShapeCasts ⟨2, ![1, N]⟩) :
    addf (Host.dotGeneral d prec x (transpose ⟨2, ![K, N]⟩ [1, 0] w ht))
        (broadcastInDim ⟨2, ![M, N]⟩ ![0, 1] h₂ (broadcastInDim ⟨2, ![1, N]⟩ ![1] h₁ b))
      = affine x w (shapeCast ⟨2, ![1, N]⟩ b hc) := by
  rw [dotGeneral_transpose d hlc hrc hln hrn hlb hrb]
  funext i
  obtain ⟨r, c, rfl⟩ : ∃ (r : Fin M) (c : Fin N), i = ix2 r c := ⟨i 0, i 1, eq_ix2 i⟩
  rw [addf_apply, broadcastInDim_row_apply, affine_apply, shapeCast_a_1a_apply]
  rfl

end Cert.Lib

end
-- ==== Proof.LibDotRows.lean ====
/-
  A matrix product whose two operands are BOTH contracted over their axis 1: an [M, K] array against an [N, K] array
  (the right operand stored output-major, so that the product is A · Bᵀ without a transposition being computed).
  The library states the product's value as a sum over the dimension numbers' contraction index set of the operands at
  two computed operand indices. Here the contraction index is one coordinate `k`, and the operand indices are (r, k) and
  (c, k): entry (r, c) of the product is the sum over k of A (r, k) · B (c, k), the inner product of row r of A with
  row c of B. Stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × rows: left axis 1 against right axis 1 -/

/-- The dimension numbers of an [M, K] × [N, K]ᵀ product. -/
def rr (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's row coordinate is the output's row coordinate. -/
theorem rr_lhs_0 (i : (⟨2, ![M, N]⟩ : Shape).Idx) (q : (rr wf).contr.Idx) : ((rr wf).lhsIdx i q 0).val = (i 0).val := by
  unfold DotDims.lhsIdx
  rw [dif_neg (show ¬(0 : Fin (⟨2, ![M, K]⟩ : Shape).rank) ∈ (rr wf).lhsBatch by simp [rr]),
    dif_pos (show (0 : Fin (⟨2, ![M, K]⟩ : Shape).rank) ∈ (rr wf).lhsNonContracting by simp [rr])]
  rfl
/-- The left operand's column coordinate is the contraction coordinate. -/
theorem rr_lhs_1 (i : (⟨2, ![M, N]⟩ : Shape).Idx) (q : (rr wf).contr.Idx) :
    ((rr wf).lhsIdx i q 1).val = (q ⟨0, Nat.one_pos⟩).val :=
  (rr wf).lhsIdx_val_of_single rfl i q
/-- The right operand's row coordinate is the output's column coordinate. -/
theorem rr_rhs_0 (i : (⟨2, ![M, N]⟩ : Shape).Idx) (q : (rr wf).contr.Idx) : ((rr wf).rhsIdx i q 0).val = (i 1).val := by
  unfold DotDims.rhsIdx
  rw [dif_neg (show ¬(0 : Fin (⟨2, ![N, K]⟩ : Shape).rank) ∈ (rr wf).rhsBatch by simp [rr]),
    dif_pos (show (0 : Fin (⟨2, ![N, K]⟩ : Shape).rank) ∈ (rr wf).rhsNonContracting by simp [rr])]
  rfl
/-- The right operand's column coordinate is the contraction coordinate. -/
theorem rr_rhs_1 (i : (⟨2, ![M, N]⟩ : Shape).Idx) (q : (rr wf).contr.Idx) :
    ((rr wf).rhsIdx i q 1).val = (q ⟨0, Nat.one_pos⟩).val :=
  (rr wf).rhsIdx_val_of_single rfl i q

/-- The contraction sum of a rows × rows product at (r, c) runs over the pairs (r, k), (c, k). -/
theorem sum_rr {β : Type} [AddCommMonoid β] (f : (⟨2, ![M, K]⟩ : Shape).Idx → (⟨2, ![N, K]⟩ : Shape).Idx → β)
    (r : Fin M) (c : Fin N) :
    ∑ k : (rr wf).contr.Idx, f ((rr wf).lhsIdx (ix2 r c) k) ((rr wf).rhsIdx (ix2 r c) k)
      = ∑ k : Fin K, f (ix2 r k) (ix2 c k) := by
  rw [← Equiv.sum_comp (contrEquiv1 (rr wf) K rfl rfl).symm]
  refine Finset.sum_congr rfl fun k _ => ?_
  have hk := contrEquiv1_symm_val (rr wf) K rfl rfl k
  have el : (rr wf).lhsIdx (ix2 r c) ((contrEquiv1 (rr wf) K rfl rfl).symm k) = ix2 r k := funext fun a => Fin.ext (by
    match a with
    | ⟨0, _⟩ => exact rr_lhs_0 wf _ _
    | ⟨1, _⟩ => exact (rr_lhs_1 wf _ _).trans hk)
  have er : (rr wf).rhsIdx (ix2 r c) ((contrEquiv1 (rr wf) K rfl rfl).symm k) = ix2 c k := funext fun a => Fin.ext (by
    match a with
    | ⟨0, _⟩ => exact rr_rhs_0 wf _ _
    | ⟨1, _⟩ => exact (rr_rhs_1 wf _ _).trans hk)
  rw [el, er]

/-- The same for any record with those axis lists. -/
theorem sum_contr_rr {β : Type} [AddCommMonoid β] (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (f : (⟨2, ![M, K]⟩ : Shape).Idx → (⟨2, ![N, K]⟩ : Shape).Idx → β) (r : Fin M) (c : Fin N) :
    ∑ k : d.contr.Idx, f (d.lhsIdx (ix2 r c) k) (d.rhsIdx (ix2 r c) k) = ∑ k : Fin K, f (ix2 r k) (ix2 c k) := by
  obtain ⟨lc, rc', ln, rn, lb, rb, wf'⟩ := d
  simp only at hlc hrc hln hrn hlb hrb
  subst hlc hrc hln hrn hlb hrb
  exact sum_rr wf' f r c

/-! ## The products themselves, at an output index -/

/-- A rows × rows block product into the zero accumulator, at (r, c): the sum over k of A (r, k) · B (c, k). -/
theorem matmul_rr_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = []) (prec : Option ContractPrecision)
    (A : FVec Ideal ⟨2, ![M, K]⟩ φ₁) (B : FVec Ideal ⟨2, ![N, K]⟩ φ₂) (r : Fin M) (c : Fin N) :
    matmul d prec A B (constant ⟨2, ![M, N]⟩ .f32 0x00000000#32) (ix2 r c) = ∑ k : Fin K, A (ix2 r k) * B (ix2 c k) := by
  simp only [matmul]
  rw [Ideal.matmul_constant_zero_apply]
  exact sum_contr_rr d hlc hrc hln hrn hlb hrb (fun a b => A a * B b) r c

/-- The host's rows × rows product at (r, c): the same sum. -/
theorem dotGeneral_rr_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = []) (prec : Option ContractPrecision)
    (A : FVec Ideal ⟨2, ![M, K]⟩ φ₁) (B : FVec Ideal ⟨2, ![N, K]⟩ φ₂) (r : Fin M) (c : Fin N) :
    Host.dotGeneral d prec A B (ix2 r c) = ∑ k : Fin K, A (ix2 r k) * B (ix2 c k) := by
  simp only [Host.dotGeneral]
  rw [Ideal.dotGeneral_apply]
  exact sum_contr_rr d hlc hrc hln hrn hlb hrb (fun a b => A a * B b) r c

end Cert.Lib

end
-- ==== Proof.MixSpec.lean ====
/-
  The quantized product with an exact correction, as ONE function of six arrays over the extended reals:

      mix a b c d rs cs (r, n) = (∑ₖ a (r, k) · b (n, k)) + ((∑ₖ c (r, k) · d (n, k)) · rs r) · cs n

  a, c are [M, K] arrays (the outlier activations and the quantized activations), b, d are [N, K] arrays stored
  output-major (the dequantized outlier weights and the quantized weights), rs is the per-row scale and cs the per-column
  scale. Both products contract axis 1 of both operands: a · bᵀ and c · dᵀ.

  Three facts, for any extents:
    * the host's spelling — each product a dot_general against an explicit transpose, the scales laid out through a
      column and a row and multiplied in that order, the correction added LAST — is mix: the two sides differ by the
      order of one addition, and addition of extended reals is commutative;
    * one accumulation step of the blocked product: an accumulator plus a block product into the zero accumulator reads,
      at (p, q), the accumulator's entry plus the sum over the block's contraction coordinate;
    * the closing expression  out + (raw · column-broadcast rs) · row-broadcast cs  read at (p, q).
  None of them uses finiteness: only commutativity of + and the definitions.
-/
import Idealize.ShloMosaic.PureOps.Ideal.Laws
import Idealize.ShloMosaic.Lib.ValueIdx
import Idealize.ShloMosaic.Lib.ValueLayout
import Idealize.ShloMosaic.Lib.Pipeline.Value
import proofs.«107277_j49220325212290_1_alg».proof.Proof.LibDense
import proofs.«107277_j49220325212290_1_alg».proof.Proof.LibDotRows

noncomputable section

namespace Cert.Mix

open Idealize.ShloMosaic Idealize.ShloMosaic.ValueIdx Cert.Lib

variable {M K N : Nat}

/-- a · bᵀ + ((c · dᵀ) · rs along the rows) · cs along the columns. -/
def mix (a : FVec Ideal ⟨2, ![M, K]⟩ .f32) (b : FVec Ideal ⟨2, ![N, K]⟩ .f32)
    (c : FVec Ideal ⟨2, ![M, K]⟩ .f32) (d : FVec Ideal ⟨2, ![N, K]⟩ .f32)
    (rs : FVec Ideal ⟨1, ![M]⟩ .f32) (cs : FVec Ideal ⟨1, ![N]⟩ .f32) : FVec Ideal ⟨2, ![M, N]⟩ .f32 :=
  fun i => mulT a b i + mulT c d i * rs (ix1 (i 0)) * cs (ix1 (i 1))

theorem mix_apply (a : FVec Ideal ⟨2, ![M, K]⟩ .f32) (b : FVec Ideal ⟨2, ![N, K]⟩ .f32)
    (c : FVec Ideal ⟨2, ![M, K]⟩ .f32) (d : FVec Ideal ⟨2, ![N, K]⟩ .f32)
    (rs : FVec Ideal ⟨1, ![M]⟩ .f32) (cs : FVec Ideal ⟨1, ![N]⟩ .f32) (r : Fin M) (n : Fin N) :
    mix a b c d rs cs (ix2 r n)
      = (∑ k : Fin K, a (ix2 r k) * b (ix2 n k)) + (∑ k : Fin K, c (ix2 r k) * d (ix2 n k)) * rs (ix1 r) * cs (ix1 n) := rfl

/-- The host's spelling: (c · dᵀ) scaled along the rows, then along the columns, plus a · bᵀ. -/
theorem host_mix (dd : DotDims ⟨2, ![M, K]⟩ ⟨2, ![K, N]⟩ ⟨2, ![M, N]⟩)
    (hlc : dd.lhsContracting = [1]) (hrc : dd.rhsContracting = [0])
    (hln : dd.lhsNonContracting = [0]) (hrn : dd.rhsNonContracting = [1])
    (hlb : dd.lhsBatch = []) (hrb : dd.rhsBatch = []) (prec : Option ContractPrecision)
    (a : FVec Ideal ⟨2, ![M, K]⟩ .f32) (b : FVec Ideal ⟨2, ![N, K]⟩ .f32)
    (c : FVec Ideal ⟨2, ![M, K]⟩ .f32) (d : FVec Ideal ⟨2, ![N, K]⟩ .f32)
    (rs : FVec Ideal ⟨1, ![M]⟩ .f32) (cs : FVec Ideal ⟨1, ![N]⟩ .f32)
    (ht : (⟨2, ![N, K]⟩ : Shape).Transposes [1, 0] ⟨2, ![K, N]⟩)
    (h₁ : (⟨1, ![M]⟩ : Shape).BroadcastsInDim ⟨2, ![M, 1]⟩ ![0])
    (h₂ : (⟨2, ![M, 1]⟩ : Shape).BroadcastsInDim ⟨2, ![M, N]⟩ ![0, 1])
    (h₃ : (⟨1, ![N]⟩ : Shape).BroadcastsInDim ⟨2, ![1, N]⟩ ![1])
    (h₄ : (⟨2, ![1, N]⟩ : Shape).BroadcastsInDim ⟨2, ![M, N]⟩ ![0, 1]) :
    addf (mulf (mulf (Host.dotGeneral dd prec c (transpose ⟨2, ![K, N]⟩ [1, 0] d ht))
          (broadcastInDim ⟨2, ![M, N]⟩ ![0, 1] h₂ (broadcastInDim ⟨2, ![M, 1]⟩ ![0] h₁ rs)))
        (broadcastInDim ⟨2, ![M, N]⟩ ![0, 1] h₄ (broadcastInDim ⟨2, ![1, N]⟩ ![1] h₃ cs)))
      (Host.dotGeneral dd prec a (transpose ⟨2, ![K, N]⟩ [1, 0] b ht))
    = mix a b c d rs cs := by
  rw [dotGeneral_transpose dd hlc hrc hln hrn hlb hrb, dotGeneral_transpose dd hlc hrc hln hrn hlb hrb]
  funext i
  obtain ⟨r, n, rfl⟩ : ∃ (r : Fin M) (n : Fin N), i = ix2 r n := ⟨i 0, i 1, eq_ix2 i⟩
  rw [addf_apply, mulf_apply, mulf_apply, broadcastInDim_col_apply, broadcastInDim_row_apply]
  exact add_comm _ _

/-- The same function with the scales given as an [M, 1] column and a [1, N] row, and the four matrices under any
    float format (over the extended reals every format's values are extended reals). -/
def mixRC (a : (⟨2, ![M, K]⟩ : Shape).Idx → EReal) (b : (⟨2, ![N, K]⟩ : Shape).Idx → EReal)
    (c : (⟨2, ![M, K]⟩ : Shape).Idx → EReal) (d : (⟨2, ![N, K]⟩ : Shape).Idx → EReal)
    (rs : (⟨2, ![M, 1]⟩ : Shape).Idx → EReal) (cs : (⟨2, ![1, N]⟩ : Shape).Idx → EReal) : (⟨2, ![M, N]⟩ : Shape).Idx → EReal :=
  fun i => (∑ k : Fin K, a (ix2 (i 0) k) * b (ix2 (i 1) k))
    + (∑ k : Fin K, c (ix2 (i 0) k) * d (ix2 (i 1) k)) * rs (ix2 (i 0) (0 : Fin 1)) * cs (ix2 (0 : Fin 1) (i 1))

theorem mixRC_apply (a : (⟨2, ![M, K]⟩ : Shape).Idx → EReal) (b : (⟨2, ![N, K]⟩ : Shape).Idx → EReal)
    (c : (⟨2, ![M, K]⟩ : Shape).Idx → EReal) (d : (⟨2, ![N, K]⟩ : Shape).Idx → EReal)
    (rs : (⟨2, ![M, 1]⟩ : Shape).Idx → EReal) (cs : (⟨2, ![1, N]⟩ : Shape).Idx → EReal) (r : Fin M) (n : Fin N) :
    mixRC a b c d rs cs (ix2 r n)
      = (∑ k : Fin K, a (ix2 r k) * b (ix2 n k))
        + (∑ k : Fin K, c (ix2 r k) * d (ix2 n k)) * rs (ix2 r (0 : Fin 1)) * cs (ix2 (0 : Fin 1) n) := rfl

/-- With the column and the row the casts of an [M] and an [N] vector, it is mix of the vectors. -/
theorem mixRC_casts (a : FVec Ideal ⟨2, ![M, K]⟩ .f32) (b : FVec Ideal ⟨2, ![N, K]⟩ .f32)
    (c : FVec Ideal ⟨2, ![M, K]⟩ .f32) (d : FVec Ideal ⟨2, ![N, K]⟩ .f32)
    (rs : FVec Ideal ⟨1, ![M]⟩ .f32) (cs : FVec Ideal ⟨1, ![N]⟩ .f32)
    (hr : (⟨1, ![M]⟩ : Shape).ShapeCasts ⟨2, ![M, 1]⟩) (hc : (⟨1, ![N]⟩ : Shape).ShapeCasts ⟨2, ![1, N]⟩) :
    mixRC a b c d (shapeCast ⟨2, ![M, 1]⟩ rs hr) (shapeCast ⟨2, ![1, N]⟩ cs hc) = mix a b c d rs cs := by
  funext i
  obtain ⟨r, n, rfl⟩ : ∃ (r : Fin M) (n : Fin N), i = ix2 r n := ⟨i 0, i 1, eq_ix2 i⟩
  rw [mixRC_apply, mix_apply, shapeCast_a_a1_apply, shapeCast_a_1a_apply]

variable {P Q L : Nat}

/-- One accumulation step: the accumulator plus the block product x · yᵀ into the zero accumulator, at (p, q). -/
theorem acc_step_apply {φ₁ φ₂ : FTy} (dd : DotDims ⟨2, ![P, L]⟩ ⟨2, ![Q, L]⟩ ⟨2, ![P, Q]⟩)
    (hlc : dd.lhsContracting = [1]) (hrc : dd.rhsContracting = [1])
    (hln : dd.lhsNonContracting = [0]) (hrn : dd.rhsNonContracting = [0])
    (hlb : dd.lhsBatch = []) (hrb : dd.rhsBatch = []) (prec : Option ContractPrecision)
    (acc : FVec Ideal ⟨2, ![P, Q]⟩ .f32) (x : FVec Ideal ⟨2, ![P, L]⟩ φ₁) (y : FVec Ideal ⟨2, ![Q, L]⟩ φ₂)
    (p : Fin P) (q : Fin Q) :
    addf acc (matmul dd prec x y (constant ⟨2, ![P, Q]⟩ .f32 0x00000000#32)) (ix2 p q)
      = acc (ix2 p q) + ∑ l : Fin L, x (ix2 p l) * y (ix2 q l) := by
  rw [addf_apply, matmul_rr_apply dd hlc hrc hln hrn hlb hrb]

/-- The closing expression at (p, q): out + (raw · rs laid along the rows) · cs laid along the columns, the scales given
    as a [P, 1] column and a [1, Q] row. -/
theorem close_apply (out raw : FVec Ideal ⟨2, ![P, Q]⟩ .f32) (rs : FVec Ideal ⟨2, ![P, 1]⟩ .f32)
    (cs : FVec Ideal ⟨2, ![1, Q]⟩ .f32)
    (hr : (⟨2, ![P, 1]⟩ : Shape).Broadcasts ⟨2, ![P, Q]⟩) (hc : (⟨2, ![1, Q]⟩ : Shape).Broadcasts ⟨2, ![P, Q]⟩)
    (p : Fin P) (q : Fin Q) :
    addf out (mulf (mulf raw (broadcastTo ⟨2, ![P, Q]⟩ rs hr)) (broadcastTo ⟨2, ![P, Q]⟩ cs hc)) (ix2 p q)
      = out (ix2 p q) + raw (ix2 p q) * rs (ix2 p (0 : Fin 1)) * cs (ix2 (0 : Fin 1) q) := by
  rw [addf_apply, mulf_apply, mulf_apply, broadcastTo_a1_ab_apply, broadcastTo_1b_ab_apply]

end Cert.Mix

end
-- ==== Proof.KernelPayload.lean ====
/-
  The body's five store values read at an index, over the extended reals:
    * the reset value is the zero block;
    * an accumulate value at (p, q) is the accumulator's entry plus the sum over the 1024 columns l of the two loaded
      blocks of  x (p, l) · y (q, l)  — the block product contracts axis 1 of both operands into the zero accumulator,
      and the shape casts around it are between equal shapes;
    * the closing value at (p, q) is  out (p, q) + (raw (p, q) · rs (p, 0)) · cs (0, q).
-/
import proofs.«107277_j49220325212290_1_alg».proof.Proof.Gen.KernelIdeal.Skeleton
import proofs.«107277_j49220325212290_1_alg».proof.Proof.MixSpec

noncomputable section

namespace Cert.KernelIdeal.Val

open Cert.KernelIdeal Cert.KernelIdeal.Gen Idealize.ShloMosaic Idealize.ShloMosaic.ValueIdx

/-- The value both accumulators are reset to is zero everywhere. -/
theorem pay1_apply (i : S2048x256.Idx) : k0_pay1 (F := Ideal) i = 0 := by
  unfold k0_pay1
  rw [shapeCast_self]
  exact Ideal.ofBits_zero_f32

theorem pay2_apply (i : S2048x256.Idx) : k0_pay2 (F := Ideal) i = 0 := by
  unfold k0_pay2
  rw [shapeCast_self]
  exact Ideal.ofBits_zero_f32

/-- The first accumulator's new value at (p, q). -/
theorem pay3_apply (acc : Vec Ideal S2048x256 .f32) (x : Vec Ideal S2048x1024 .bf16) (y : Vec Ideal S256x1024 .bf16)
    (p : Fin 2048) (q : Fin 256) :
    k0_pay3 acc x y (ix2 p q) = acc (ix2 p q) + ∑ l : Fin 1024, x (ix2 p l) * y (ix2 q l) := by
  unfold k0_pay3
  rw [shapeCast_self, shapeCast_self, shapeCast_self]
  exact Cert.Mix.acc_step_apply dot_S2048x1024_S256x1024_S2048x256_1_1_0_0_n_n rfl rfl rfl rfl rfl rfl none acc x y p q

/-- The second accumulator's new value at (p, q). -/
theorem pay4_apply (acc : Vec Ideal S2048x256 .f32) (x : Vec Ideal S2048x1024 .bf16) (y : Vec Ideal S256x1024 .bf16)
    (p : Fin 2048) (q : Fin 256) :
    k0_pay4 acc x y (ix2 p q) = acc (ix2 p q) + ∑ l : Fin 1024, x (ix2 p l) * y (ix2 q l) := by
  unfold k0_pay4
  rw [shapeCast_self, shapeCast_self, shapeCast_self]
  exact Cert.Mix.acc_step_apply dot_S2048x1024_S256x1024_S2048x256_1_1_0_0_n_n rfl rfl rfl rfl rfl rfl none acc x y p q

/-- The output block's value at (p, q). -/
theorem pay5_apply (out raw : Vec Ideal S2048x256 .f32) (rs : Vec Ideal S2048x1 .f32) (cs : Vec Ideal S1x256 .f32)
    (p : Fin 2048) (q : Fin 256) :
    k0_pay5 out raw rs cs (ix2 p q) = out (ix2 p q) + raw (ix2 p q) * rs (ix2 p (0 : Fin 1)) * cs (ix2 (0 : Fin 1) q) := by
  unfold k0_pay5
  rw [shapeCast_self, shapeCast_self]
  exact Cert.Mix.close_apply out raw rs cs broadcasts_S2048x1_S2048x256 broadcasts_S1x256_S2048x256 p q

end Cert.KernelIdeal.Val

end
-- ==== Proof.KernelBlocks.lean ====
/-
  The grid of the fused product has 4 · 43 · 4 = 688 points; point t has coordinates (i, j, k) with
  i = t / 172, j = (t / 4) mod 43, k = t mod 4. At that point the kernel reads
    * rows 2048·i … of the two [8192, 4096] left operands, columns 1024·k …;
    * rows 256·j … of the two [11008, 4096] right operands, columns 1024·k …;
    * rows 2048·i … of the row-scale column and columns 256·j … of the column-scale row,
  and its output block is rows 2048·i …, columns 256·j … of the [8192, 11008] result.
  Here: those index maps, decided once over the grid, and each input block read at an index as an entry of the whole
  array the region finds. Arrays are read through total functions of two natural numbers (zero outside the array), so that
  no statement carries a bound inside an index.
-/
import proofs.«107277_j49220325212290_1_alg».proof.Proof.Gen.KernelIdeal.Frame
import Idealize.ShloMosaic.Lib.Pipeline.Value
import Idealize.ShloMosaic.Lib.ValueIdx

noncomputable section

namespace Cert.KernelIdeal.Val

open Cert.KernelIdeal Cert.KernelIdeal.Gen Idealize.ShloMosaic Idealize.ShloMosaic.TcCoe Idealize.ShloMosaic.ValueIdx
open Idealize.ShloMosaic.Pipeline (Dat)

/-- A rank-2 array of extended reals as a total function of a row and a column number: zero outside the array. -/
def nat2 {R K : Nat} (A : (⟨2, ![R, K]⟩ : Shape).Idx → EReal) (r k : ℕ) : EReal :=
  if h : r < R ∧ k < K then A (ix2 ⟨r, h.1⟩ ⟨k, h.2⟩) else 0

theorem nat2_of_lt {R K : Nat} (A : (⟨2, ![R, K]⟩ : Shape).Idx → EReal) (r k : ℕ) (hr : r < R) (hk : k < K) :
    nat2 A r k = A (ix2 ⟨r, hr⟩ ⟨k, hk⟩) := dif_pos ⟨hr, hk⟩

/-! ## The index maps over the grid -/

/-- Point t's block indices, window by window, with i = t / 172, j = (t / 4) mod 43, k = t mod 4: (i, k) for the two left
    operands, (j, k) for the two right ones, (i, 0) and (0, j) for the scales, (i, j) for the output. -/
theorem idx0 : ∀ t : Fin cfg0.N, win0_0.index t (0 : Fin 2) = t.val / 172 ∧ win0_0.index t (1 : Fin 2) = t.val % 4 :=
  (by decide +kernel : ∀ t : Fin grid0.N, win0_0.index t (0 : Fin 2) = t.val / 172 ∧ win0_0.index t (1 : Fin 2) = t.val % 4)
theorem idx1 : ∀ t : Fin cfg0.N, win0_1.index t (0 : Fin 2) = t.val / 4 % 43 ∧ win0_1.index t (1 : Fin 2) = t.val % 4 :=
  (by decide +kernel : ∀ t : Fin grid0.N, win0_1.index t (0 : Fin 2) = t.val / 4 % 43 ∧ win0_1.index t (1 : Fin 2) = t.val % 4)
theorem idx2 : ∀ t : Fin cfg0.N, win0_2.index t (0 : Fin 2) = t.val / 172 ∧ win0_2.index t (1 : Fin 2) = t.val % 4 :=
  (by decide +kernel : ∀ t : Fin grid0.N, win0_2.index t (0 : Fin 2) = t.val / 172 ∧ win0_2.index t (1 : Fin 2) = t.val % 4)
theorem idx3 : ∀ t : Fin cfg0.N, win0_3.index t (0 : Fin 2) = t.val / 4 % 43 ∧ win0_3.index t (1 : Fin 2) = t.val % 4 :=
  (by decide +kernel : ∀ t : Fin grid0.N, win0_3.index t (0 : Fin 2) = t.val / 4 % 43 ∧ win0_3.index t (1 : Fin 2) = t.val % 4)
theorem idx4 : ∀ t : Fin cfg0.N, win0_4.index t (0 : Fin 2) = t.val / 172 ∧ win0_4.index t (1 : Fin 2) = 0 :=
  (by decide +kernel : ∀ t : Fin grid0.N, win0_4.index t (0 : Fin 2) = t.val / 172 ∧ win0_4.index t (1 : Fin 2) = 0)
theorem idx5 : ∀ t : Fin cfg0.N, win0_5.index t (0 : Fin 2) = 0 ∧ win0_5.index t (1 : Fin 2) = t.val / 4 % 43 :=
  (by decide +kernel : ∀ t : Fin grid0.N, win0_5.index t (0 : Fin 2) = 0 ∧ win0_5.index t (1 : Fin 2) = t.val / 4 % 43)
theorem idx6 : ∀ t : Fin cfg0.N, win0_6.index t (0 : Fin 2) = t.val / 172 ∧ win0_6.index t (1 : Fin 2) = t.val / 4 % 43 :=
  (by decide +kernel : ∀ t : Fin grid0.N, win0_6.index t (0 : Fin 2) = t.val / 172 ∧ win0_6.index t (1 : Fin 2) = t.val / 4 % 43)

theorem t_lt (t : Fin cfg0.N) : t.val < 688 := lt_of_lt_of_eq t.isLt (show cfg0.N = 688 from N_0)

/-! ## A window's block at a point, of ANY contents of the window's array, read at an index

A block's coordinate on an axis is (the window's block index) · (block size) + (the coordinate inside the block). -/

theorem read_blk0 (c : Dev nD) (X : Buf (Elt Ideal) ((c : Thread nD τ).loc main_v37)) (t : Fin cfg0.N) (p : Fin 2048) (l : Fin 1024) :
    ((cfg0.win 0).blk t).view.read (Elt Ideal) X (ix2 p l)
      = nat2 (X : S8192x4096.Idx → EReal) (t.val / 172 * 2048 + p.val) (t.val % 4 * 1024 + l.val) := by
  have ht := t_lt t
  obtain ⟨e0, e1⟩ := idx0 t
  rw [nat2_of_lt _ _ _ (by omega) (by omega), View.read_apply]
  show X (((cfg0.win 0).blk t).view.emb (ix2 p l)) = X _
  refine congrArg X (funext fun a => Fin.ext ?_)
  match a with
  | ⟨0, _⟩ => show win0_0.index t (0 : Fin 2) * 2048 + 1 * p.val = t.val / 172 * 2048 + p.val; rw [e0]; omega
  | ⟨1, _⟩ => show win0_0.index t (1 : Fin 2) * 1024 + 1 * l.val = t.val % 4 * 1024 + l.val; rw [e1]; omega

theorem read_blk1 (c : Dev nD) (X : Buf (Elt Ideal) ((c : Thread nD τ).loc main_v38)) (t : Fin cfg0.N) (q : Fin 256) (l : Fin 1024) :
    ((cfg0.win 1).blk t).view.read (Elt Ideal) X (ix2 q l)
      = nat2 (X : S11008x4096.Idx → EReal) (t.val / 4 % 43 * 256 + q.val) (t.val % 4 * 1024 + l.val) := by
  have ht := t_lt t
  obtain ⟨e0, e1⟩ := idx1 t
  rw [nat2_of_lt _ _ _ (by omega) (by omega), View.read_apply]
  show X (((cfg0.win 1).blk t).view.emb (ix2 q l)) = X _
  refine congrArg X (funext fun a => Fin.ext ?_)
  match a with
  | ⟨0, _⟩ => show win0_1.index t (0 : Fin 2) * 256 + 1 * q.val = t.val / 4 % 43 * 256 + q.val; rw [e0]; omega
  | ⟨1, _⟩ => show win0_1.index t (1 : Fin 2) * 1024 + 1 * l.val = t.val % 4 * 1024 + l.val; rw [e1]; omega

theorem read_blk2 (c : Dev nD) (X : Buf (Elt Ideal) ((c : Thread nD τ).loc main_v39)) (t : Fin cfg0.N) (p : Fin 2048) (l : Fin 1024) :
    ((cfg0.win 2).blk t).view.read (Elt Ideal) X (ix2 p l)
      = nat2 (X : S8192x4096.Idx → EReal) (t.val / 172 * 2048 + p.val) (t.val % 4 * 1024 + l.val) := by
  have ht := t_lt t
  obtain ⟨e0, e1⟩ := idx2 t
  rw [nat2_of_lt _ _ _ (by omega) (by omega), View.read_apply]
  show X (((cfg0.win 2).blk t).view.emb (ix2 p l)) = X _
  refine congrArg X (funext fun a => Fin.ext ?_)
  match a with
  | ⟨0, _⟩ => show win0_2.index t (0 : Fin 2) * 2048 + 1 * p.val = t.val / 172 * 2048 + p.val; rw [e0]; omega
  | ⟨1, _⟩ => show win0_2.index t (1 : Fin 2) * 1024 + 1 * l.val = t.val % 4 * 1024 + l.val; rw [e1]; omega

theorem read_blk3 (c : Dev nD) (X : Buf (Elt Ideal) ((c : Thread nD τ).loc main_v40)) (t : Fin cfg0.N) (q : Fin 256) (l : Fin 1024) :
    ((cfg0.win 3).blk t).view.read (Elt Ideal) X (ix2 q l)
      = nat2 (X : S11008x4096.Idx → EReal) (t.val / 4 % 43 * 256 + q.val) (t.val % 4 * 1024 + l.val) := by
  have ht := t_lt t
  obtain ⟨e0, e1⟩ := idx3 t
  rw [nat2_of_lt _ _ _ (by omega) (by omega), View.read_apply]
  show X (((cfg0.win 3).blk t).view.emb (ix2 q l)) = X _
  refine congrArg X (funext fun a => Fin.ext ?_)
  match a with
  | ⟨0, _⟩ => show win0_3.index t (0 : Fin 2) * 256 + 1 * q.val = t.val / 4 % 43 * 256 + q.val; rw [e0]; omega
  | ⟨1, _⟩ => show win0_3.index t (1 : Fin 2) * 1024 + 1 * l.val = t.val % 4 * 1024 + l.val; rw [e1]; omega

theorem read_blk4 (c : Dev nD) (X : Buf (Elt Ideal) ((c : Thread nD τ).loc main_v41)) (t : Fin cfg0.N) (p : Fin 2048) :
    ((cfg0.win 4).blk t).view.read (Elt Ideal) X (ix2 p (0 : Fin 1))
      = nat2 (X : S8192x1.Idx → EReal) (t.val / 172 * 2048 + p.val) 0 := by
  have ht := t_lt t
  obtain ⟨e0, e1⟩ := idx4 t
  rw [nat2_of_lt _ _ _ (by omega) (by omega), View.read_apply]
  show X (((cfg0.win 4).blk t).view.emb (ix2 p (0 : Fin 1))) = X _
  refine congrArg X (funext fun a => Fin.ext ?_)
  match a with
  | ⟨0, _⟩ => show win0_4.index t (0 : Fin 2) * 2048 + 1 * p.val = t.val / 172 * 2048 + p.val; rw [e0]; omega
  | ⟨1, _⟩ => show win0_4.index t (1 : Fin 2) * 1 + 1 * (0 : Fin 1).val = 0; rw [e1]; rfl

theorem read_blk5 (c : Dev nD) (X : Buf (Elt Ideal) ((c : Thread nD τ).loc main_v42)) (t : Fin cfg0.N) (q : Fin 256) :
    ((cfg0.win 5).blk t).view.read (Elt Ideal) X (ix2 (0 : Fin 1) q)
      = nat2 (X : S1x11008.Idx → EReal) 0 (t.val / 4 % 43 * 256 + q.val) := by
  have ht := t_lt t
  obtain ⟨e0, e1⟩ := idx5 t
  rw [nat2_of_lt _ _ _ (by omega) (by omega), View.read_apply]
  show X (((cfg0.win 5).blk t).view.emb (ix2 (0 : Fin 1) q)) = X _
  refine congrArg X (funext fun a => Fin.ext ?_)
  match a with
  | ⟨0, _⟩ => show win0_5.index t (0 : Fin 2) * 1 + 1 * (0 : Fin 1).val = 0; rw [e0]; rfl
  | ⟨1, _⟩ => show win0_5.index t (1 : Fin 2) * 256 + 1 * q.val = t.val / 4 % 43 * 256 + q.val; rw [e1]; omega

variable (m : (ℓ : Loc nD τ sig) → Buf (Elt Ideal) ℓ)

/-! ## The six arrays the region reads, as it finds them -/

abbrev arrA (c : Dev nD) : S8192x4096.Idx → EReal := V m c main_v37
abbrev arrB (c : Dev nD) : S11008x4096.Idx → EReal := V m c main_v38
abbrev arrC (c : Dev nD) : S8192x4096.Idx → EReal := V m c main_v39
abbrev arrD (c : Dev nD) : S11008x4096.Idx → EReal := V m c main_v40
abbrev arrRS (c : Dev nD) : S8192x1.Idx → EReal := V m c main_v41
abbrev arrCS (c : Dev nD) : S1x11008.Idx → EReal := V m c main_v42

/-! ## The blocks at a point, under their literal types, read at an index -/

abbrev blkA (c : Dev nD) (t : Fin cfg0.N) : S2048x1024.Idx → EReal := iblk m c 0 t
abbrev blkB (c : Dev nD) (t : Fin cfg0.N) : S256x1024.Idx → EReal := iblk m c 1 t
abbrev blkC (c : Dev nD) (t : Fin cfg0.N) : S2048x1024.Idx → EReal := iblk m c 2 t
abbrev blkD (c : Dev nD) (t : Fin cfg0.N) : S256x1024.Idx → EReal := iblk m c 3 t
abbrev blkRS (c : Dev nD) (t : Fin cfg0.N) : S2048x1.Idx → EReal := iblk m c 4 t
abbrev blkCS (c : Dev nD) (t : Fin cfg0.N) : S1x256.Idx → EReal := iblk m c 5 t

theorem blkA_apply (c : Dev nD) (t : Fin cfg0.N) (p : Fin 2048) (l : Fin 1024) :
    blkA m c t (ix2 p l) = nat2 (arrA m c) (t.val / 172 * 2048 + p.val) (t.val % 4 * 1024 + l.val) :=
  read_blk0 c (V m c main_v37) t p l
theorem blkB_apply (c : Dev nD) (t : Fin cfg0.N) (q : Fin 256) (l : Fin 1024) :
    blkB m c t (ix2 q l) = nat2 (arrB m c) (t.val / 4 % 43 * 256 + q.val) (t.val % 4 * 1024 + l.val) :=
  read_blk1 c (V m c main_v38) t q l
theorem blkC_apply (c : Dev nD) (t : Fin cfg0.N) (p : Fin 2048) (l : Fin 1024) :
    blkC m c t (ix2 p l) = nat2 (arrC m c) (t.val / 172 * 2048 + p.val) (t.val % 4 * 1024 + l.val) :=
  read_blk2 c (V m c main_v39) t p l
theorem blkD_apply (c : Dev nD) (t : Fin cfg0.N) (q : Fin 256) (l : Fin 1024) :
    blkD m c t (ix2 q l) = nat2 (arrD m c) (t.val / 4 % 43 * 256 + q.val) (t.val % 4 * 1024 + l.val) :=
  read_blk3 c (V m c main_v40) t q l
theorem blkRS_apply (c : Dev nD) (t : Fin cfg0.N) (p : Fin 2048) :
    blkRS m c t (ix2 p (0 : Fin 1)) = nat2 (arrRS m c) (t.val / 172 * 2048 + p.val) 0 :=
  read_blk4 c (V m c main_v41) t p
theorem blkCS_apply (c : Dev nD) (t : Fin cfg0.N) (q : Fin 256) :
    blkCS m c t (ix2 (0 : Fin 1) q) = nat2 (arrCS m c) 0 (t.val / 4 % 43 * 256 + q.val) :=
  read_blk5 c (V m c main_v42) t q

end Cert.KernelIdeal.Val

end
-- ==== Proof.LibRunSums.lean ====
/-
  Two ways of regrouping a finite sum, in any commutative additive monoid (so on the extended reals, where addition is
  commutative and associative at the infinities too, neither needs a finiteness hypothesis).
    * A sum over n = B·C consecutive terms is the sum over its B runs of C terms: term x = b·C + c belongs to run b.
    * Runs added one after another starting from the first, ((g 0 + g 1) + g 2) + …, are the sum of the runs.
  The terms are indexed by natural numbers, so that no statement carries a bound inside an index.
-/
import Mathlib.Data.Fintype.BigOperators
import Mathlib.Logic.Equiv.Fin.Basic
import Mathlib.Algebra.BigOperators.Fin

namespace Cert.Lib

variable {β : Type} [AddCommMonoid β]

/-- A sum over n = B·C terms is the sum over the B runs of the sum of the C terms of each run. -/
theorem sum_eq_sum_runs (B C n : ℕ) (hn : n = B * C) (f : ℕ → β) :
    ∑ x : Fin n, f x.val = ∑ b : Fin B, ∑ c : Fin C, f (b.val * C + c.val) := by
  subst hn
  rw [← Fintype.sum_prod_type' (fun (b : Fin B) (c : Fin C) => f (b.val * C + c.val))]
  refine (Fintype.sum_equiv finProdFinEquiv (fun p : Fin B × Fin C => f (p.1.val * C + p.2.val)) (fun x => f x.val)
    fun p => ?_).symm
  show f (p.1.val * C + p.2.val) = f (p.2.val + C * p.1.val)
  rw [Nat.add_comm, Nat.mul_comm]

/-- The runs added one after another, from the first: g 0, then + g 1, then + g 2, … -/
def accRuns (g : ℕ → β) : ℕ → β
  | 0 => g 0
  | k + 1 => accRuns g k + g (k + 1)

theorem accRuns_zero (g : ℕ → β) : accRuns g 0 = g 0 := rfl

theorem accRuns_succ (g : ℕ → β) (k : ℕ) : accRuns g (k + 1) = accRuns g k + g (k + 1) := rfl

/-- After run k the accumulated value is the sum of runs 0 … k. -/
theorem accRuns_eq_sum_range (g : ℕ → β) : ∀ k : ℕ, accRuns g k = ∑ b ∈ Finset.range (k + 1), g b
  | 0 => by rw [accRuns_zero, Finset.sum_range_one]
  | k + 1 => by rw [accRuns_succ, accRuns_eq_sum_range g k, Finset.sum_range_succ g (k + 1)]

theorem accRuns_eq_sum_fin (g : ℕ → β) (k : ℕ) : accRuns g k = ∑ b : Fin (k + 1), g b.val := by
  rw [accRuns_eq_sum_range, Fin.sum_univ_eq_sum_range (fun i => g i)]

/-- A sum over n = (k+1)·C terms accumulated run by run: after the last run it is the whole sum. -/
theorem accRuns_runs_eq_sum (k C n : ℕ) (hn : n = (k + 1) * C) (f : ℕ → β) :
    accRuns (fun b => ∑ c : Fin C, f (b * C + c.val)) k = ∑ x : Fin n, f x.val := by
  rw [accRuns_eq_sum_fin, sum_eq_sum_runs (k + 1) C n hn f]

end Cert.Lib
-- ==== Proof.KernelAcc.lean ====
/-
  The two accumulators, point by point. Point t = (i, j, k) adds to each accumulator the block product over the k-th run
  of 1024 contraction columns, and k = 0 first resets them. So after point t the first accumulator holds, at (p, q), the
  first k + 1 runs of  ∑ₓ A (2048·i + p, x) · B (256·j + q, x)  added one after another from run 0 (from the zero block at
  k = 0, and 0 + s = s), and the second the same of C and D. By induction on the point, never by listing the grid: a step
  with 0 < k stays at the same i and j, because 4 divides 172.
  At a point with k = 3 all four runs are in, so each accumulator is the whole sum over the 4096 columns, and the block the
  kernel stores there is, at (p, q),
      ∑ₓ A (r, x) · B (s, x) + (∑ₓ C (r, x) · D (s, x)) · RS (r, 0) · CS (0, s),   r = 2048·i + p,  s = 256·j + q.
-/
import proofs.«107277_j49220325212290_1_alg».proof.Proof.KernelPieces
import proofs.«107277_j49220325212290_1_alg».proof.Proof.KernelPayload
import proofs.«107277_j49220325212290_1_alg».proof.Proof.KernelBlocks
import proofs.«107277_j49220325212290_1_alg».proof.Proof.LibRunSums

noncomputable section

namespace Cert.KernelIdeal.Val

open Cert.KernelIdeal Cert.KernelIdeal.Gen Idealize.ShloMosaic Idealize.ShloMosaic.TcCoe Idealize.ShloMosaic.ValueIdx
open Cert.Lib (accRuns accRuns_zero accRuns_succ accRuns_runs_eq_sum)

/-- Run kb of the contraction of row r of a with row s of b: its 1024 columns kb·1024, kb·1024 + 1, … -/
def dotRun (a b : ℕ → ℕ → EReal) (r s kb : ℕ) : EReal := ∑ l : Fin 1024, a r (kb * 1024 + l.val) * b s (kb * 1024 + l.val)

/-- At k = 0: zero plus run 0 is the accumulation up to run 0. -/
theorem runs_first (a b : ℕ → ℕ → EReal) (n : ℕ) (hn : n % 4 = 0) (p q : ℕ) :
    (0 : EReal) + ∑ l : Fin 1024, a (n / 172 * 2048 + p) (n % 4 * 1024 + l.val) * b (n / 4 % 43 * 256 + q) (n % 4 * 1024 + l.val)
      = accRuns (dotRun a b (n / 172 * 2048 + p) (n / 4 % 43 * 256 + q)) (n % 4) := by
  rw [hn, accRuns_zero, zero_add]
  rfl

/-- At 0 < k: the accumulation up to run k − 1 at the point before, plus run k, is the accumulation up to run k; the
    point before has the same i and j. -/
theorem runs_next (a b : ℕ → ℕ → EReal) (n : ℕ) (hn : ¬(n + 1) % 4 = 0) (p q : ℕ) :
    accRuns (dotRun a b (n / 172 * 2048 + p) (n / 4 % 43 * 256 + q)) (n % 4)
        + ∑ l : Fin 1024, a ((n + 1) / 172 * 2048 + p) ((n + 1) % 4 * 1024 + l.val) * b ((n + 1) / 4 % 43 * 256 + q) ((n + 1) % 4 * 1024 + l.val)
      = accRuns (dotRun a b ((n + 1) / 172 * 2048 + p) ((n + 1) / 4 % 43 * 256 + q)) ((n + 1) % 4) := by
  have e1 : (n + 1) / 172 = n / 172 := by omega
  have e2 : (n + 1) / 4 % 43 = n / 4 % 43 := by omega
  have e3 : (n + 1) % 4 = n % 4 + 1 := by omega
  rw [e1, e2, e3, accRuns_succ]
  rfl

/-- After the last run the accumulation is the whole sum over the 4096 columns. -/
theorem runs_all (a b : ℕ → ℕ → EReal) (r s : ℕ) :
    accRuns (dotRun a b r s) 3 = ∑ x : Fin 4096, a r x.val * b s x.val :=
  accRuns_runs_eq_sum 3 1024 4096 rfl (fun x => a r x * b s x)

variable (m : (ℓ : Loc nD τ sig) → Buf (Elt Ideal) ℓ)

/-! ## What each case leaves, over the blocks under their literal types -/

theorem acc0_A (c : Dev nD) (t : Fin cfg0.N) (h0 : t.val % 4 = 0) (h1 : ¬t.val % 4 = 3) :
    (outsAt0 m c t.val t.isLt).2.1 = k0_pay3 (F := Ideal) (k0_pay1 (F := Ideal)) (blkA m c t) (blkB m c t) := by
  rw [outsAt0_A m c t h0 h1]; dsimp only
  exact scr0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem acc1_A (c : Dev nD) (t : Fin cfg0.N) (h0 : t.val % 4 = 0) (h1 : ¬t.val % 4 = 3) :
    (outsAt0 m c t.val t.isLt).2.2 = k0_pay4 (F := Ideal) (k0_pay2 (F := Ideal)) (blkC m c t) (blkD m c t) := by
  rw [outsAt0_A m c t h0 h1]; dsimp only
  exact scr1_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem acc0_B (c : Dev nD) (t : Fin cfg0.N) (h0 : ¬t.val % 4 = 0) (h1 : ¬t.val % 4 = 3) :
    (outsAt0 m c t.val t.isLt).2.1 = k0_pay3 (outsAt0 m c (t.val - 1) (Nat.lt_of_le_of_lt (Nat.sub_le _ _) t.isLt)).2.1 (blkA m c t) (blkB m c t) := by
  rw [outsAt0_B m c t h0 h1]; dsimp only
  exact scr0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2

theorem acc1_B (c : Dev nD) (t : Fin cfg0.N) (h0 : ¬t.val % 4 = 0) (h1 : ¬t.val % 4 = 3) :
    (outsAt0 m c t.val t.isLt).2.2 = k0_pay4 (outsAt0 m c (t.val - 1) (Nat.lt_of_le_of_lt (Nat.sub_le _ _) t.isLt)).2.2 (blkC m c t) (blkD m c t) := by
  rw [outsAt0_B m c t h0 h1]; dsimp only
  exact scr1_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2

theorem acc0_C (c : Dev nD) (t : Fin cfg0.N) (h0 : ¬t.val % 4 = 0) (h1 : t.val % 4 = 3) :
    (outsAt0 m c t.val t.isLt).2.1 = k0_pay3 (outsAt0 m c (t.val - 1) (Nat.lt_of_le_of_lt (Nat.sub_le _ _) t.isLt)).2.1 (blkA m c t) (blkB m c t) := by
  rw [outsAt0_C m c t h0 h1]; dsimp only
  exact scr0_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2

theorem acc1_C (c : Dev nD) (t : Fin cfg0.N) (h0 : ¬t.val % 4 = 0) (h1 : t.val % 4 = 3) :
    (outsAt0 m c t.val t.isLt).2.2 = k0_pay4 (outsAt0 m c (t.val - 1) (Nat.lt_of_le_of_lt (Nat.sub_le _ _) t.isLt)).2.2 (blkC m c t) (blkD m c t) := by
  rw [outsAt0_C m c t h0 h1]; dsimp only
  exact scr1_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2

theorem outblk_C (c : Dev nD) (t : Fin cfg0.N) (h0 : ¬t.val % 4 = 0) (h1 : t.val % 4 = 3) :
    (outsAt0 m c t.val t.isLt).1
      = k0_pay5 (k0_pay3 (outsAt0 m c (t.val - 1) (Nat.lt_of_le_of_lt (Nat.sub_le _ _) t.isLt)).2.1 (blkA m c t) (blkB m c t)) (k0_pay4 (outsAt0 m c (t.val - 1) (Nat.lt_of_le_of_lt (Nat.sub_le _ _) t.isLt)).2.2 (blkC m c t) (blkD m c t))
          (blkRS m c t) (blkCS m c t) := by
  rw [outsAt0_C m c t h0 h1]; dsimp only
  exact out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2

/-! ## The accumulators after every point -/

/-- One accumulate value at (p, q) over the whole arrays: the accumulator's entry plus run k of the two rows. -/
theorem pay3_blocks (c : Dev nD) (t : Fin cfg0.N) (acc : Vec Ideal S2048x256 .f32) (p : Fin 2048) (q : Fin 256) :
    k0_pay3 acc (blkA m c t) (blkB m c t) (ix2 p q)
      = acc (ix2 p q) + ∑ l : Fin 1024, nat2 (arrA m c) (t.val / 172 * 2048 + p.val) (t.val % 4 * 1024 + l.val)
          * nat2 (arrB m c) (t.val / 4 % 43 * 256 + q.val) (t.val % 4 * 1024 + l.val) := by
  rw [pay3_apply]
  refine congrArg (acc (ix2 p q) + ·) (Finset.sum_congr rfl fun l _ => ?_)
  rw [blkA_apply, blkB_apply]

theorem pay4_blocks (c : Dev nD) (t : Fin cfg0.N) (acc : Vec Ideal S2048x256 .f32) (p : Fin 2048) (q : Fin 256) :
    k0_pay4 acc (blkC m c t) (blkD m c t) (ix2 p q)
      = acc (ix2 p q) + ∑ l : Fin 1024, nat2 (arrC m c) (t.val / 172 * 2048 + p.val) (t.val % 4 * 1024 + l.val)
          * nat2 (arrD m c) (t.val / 4 % 43 * 256 + q.val) (t.val % 4 * 1024 + l.val) := by
  rw [pay4_apply]
  refine congrArg (acc (ix2 p q) + ·) (Finset.sum_congr rfl fun l _ => ?_)
  rw [blkC_apply, blkD_apply]

/-- After point n the accumulators hold, at (p, q), the runs 0 … n mod 4 of the two contractions of rows
    2048·(n / 172) + p and 256·((n / 4) mod 43) + q. -/
theorem acc_inv (c : Dev nD) (n : ℕ) : ∀ (h : n < cfg0.N) (p : Fin 2048) (q : Fin 256),
    (outsAt0 m c n h).2.1 (ix2 p q)
        = accRuns (dotRun (nat2 (arrA m c)) (nat2 (arrB m c)) (n / 172 * 2048 + p.val) (n / 4 % 43 * 256 + q.val)) (n % 4)
    ∧ (outsAt0 m c n h).2.2 (ix2 p q)
        = accRuns (dotRun (nat2 (arrC m c)) (nat2 (arrD m c)) (n / 172 * 2048 + p.val) (n / 4 % 43 * 256 + q.val)) (n % 4) := by
  induction n with
  | zero =>
    intro h p q
    have h0 : (⟨0, h⟩ : Fin cfg0.N).val % 4 = 0 := rfl
    have h1 : ¬(⟨0, h⟩ : Fin cfg0.N).val % 4 = 3 := (by decide : ¬(0 : ℕ) % 4 = 3)
    refine ⟨?_, ?_⟩
    · rw [show (outsAt0 m c 0 h).2.1 = _ from acc0_A m c ⟨0, h⟩ h0 h1, pay3_blocks, pay1_apply]
      exact runs_first _ _ 0 rfl _ _
    · rw [show (outsAt0 m c 0 h).2.2 = _ from acc1_A m c ⟨0, h⟩ h0 h1, pay4_blocks, pay2_apply]
      exact runs_first _ _ 0 rfl _ _
  | succ n ih =>
    intro h p q
    have hN : n + 1 < 688 := lt_of_lt_of_eq h (show cfg0.N = 688 from N_0)
    by_cases h0 : (n + 1) % 4 = 0
    · have h1 : ¬(n + 1) % 4 = 3 := by omega
      refine ⟨?_, ?_⟩
      · rw [show (outsAt0 m c (n + 1) h).2.1 = _ from acc0_A m c ⟨n + 1, h⟩ h0 h1, pay3_blocks, pay1_apply]
        exact runs_first _ _ (n + 1) h0 _ _
      · rw [show (outsAt0 m c (n + 1) h).2.2 = _ from acc1_A m c ⟨n + 1, h⟩ h0 h1, pay4_blocks, pay2_apply]
        exact runs_first _ _ (n + 1) h0 _ _
    · obtain ⟨ih0, ih1⟩ := ih (Nat.lt_of_succ_lt h) p q
      by_cases h1 : (n + 1) % 4 = 3
      · refine ⟨?_, ?_⟩
        · rw [show (outsAt0 m c (n + 1) h).2.1 = _ from acc0_C m c ⟨n + 1, h⟩ h0 h1, pay3_blocks]
          show (outsAt0 m c n _).2.1 (ix2 p q) + _ = _
          rw [ih0]
          exact runs_next _ _ n h0 _ _
        · rw [show (outsAt0 m c (n + 1) h).2.2 = _ from acc1_C m c ⟨n + 1, h⟩ h0 h1, pay4_blocks]
          show (outsAt0 m c n _).2.2 (ix2 p q) + _ = _
          rw [ih1]
          exact runs_next _ _ n h0 _ _
      · refine ⟨?_, ?_⟩
        · rw [show (outsAt0 m c (n + 1) h).2.1 = _ from acc0_B m c ⟨n + 1, h⟩ h0 h1, pay3_blocks]
          show (outsAt0 m c n _).2.1 (ix2 p q) + _ = _
          rw [ih0]
          exact runs_next _ _ n h0 _ _
        · rw [show (outsAt0 m c (n + 1) h).2.2 = _ from acc1_B m c ⟨n + 1, h⟩ h0 h1, pay4_blocks]
          show (outsAt0 m c n _).2.2 (ix2 p q) + _ = _
          rw [ih1]
          exact runs_next _ _ n h0 _ _

/-! ## The block stored at a point with k = 3 -/

/-- At a point with k = 3 the output block holds, at (p, q), the whole-row sums combined by the two scales. -/
theorem outblk_apply (c : Dev nD) (t : Fin cfg0.N) (h3 : t.val % 4 = 3) (p : Fin 2048) (q : Fin 256) :
    (outsAt0 m c t.val t.isLt).1 (ix2 p q)
      = (∑ x : Fin 4096, nat2 (arrA m c) (t.val / 172 * 2048 + p.val) x.val * nat2 (arrB m c) (t.val / 4 % 43 * 256 + q.val) x.val)
        + (∑ x : Fin 4096, nat2 (arrC m c) (t.val / 172 * 2048 + p.val) x.val * nat2 (arrD m c) (t.val / 4 % 43 * 256 + q.val) x.val)
          * nat2 (arrRS m c) (t.val / 172 * 2048 + p.val) 0 * nat2 (arrCS m c) 0 (t.val / 4 % 43 * 256 + q.val) := by
  have h0 : ¬t.val % 4 = 0 := by omega
  obtain ⟨i0, i1⟩ := acc_inv m c t.val t.isLt p q
  rw [show (outsAt0 m c t.val t.isLt).2.1 = _ from acc0_C m c t h0 h3] at i0
  rw [show (outsAt0 m c t.val t.isLt).2.2 = _ from acc1_C m c t h0 h3] at i1
  rw [show (outsAt0 m c t.val t.isLt).1 = _ from outblk_C m c t h0 h3, pay5_apply, i0, i1, blkRS_apply, blkCS_apply, h3,
    runs_all, runs_all]

end Cert.KernelIdeal.Val

end
-- ==== Proof.KernelRun.lean ====
/-
  The kernel's result. The output window is written back only at the points with k = 3, one per pair (i, j); the block
  written there is rows 2048·i …, columns 256·j … of ONE function of the six arrays the region finds:

      out (r, s) = ∑ₓ A (r, x) · B (s, x) + (∑ₓ C (r, x) · D (s, x)) · RS (r, 0) · CS (0, s).

  Those 4 · 43 blocks tile the [8192, 11008] array (the block holding (r, s) is that of i = r / 2048, j = s / 256), so
  after the region the array holds out everywhere. The one host operation after the region reshapes it to
  [4, 2048, 11008], and nothing after the region writes an argument.
-/
import proofs.«107277_j49220325212290_1_alg».proof.Proof.KernelAcc
import Idealize.ShloMosaic.Lib.Pipeline.Value
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

theorem nat2_fin {R K : Nat} (A : (⟨2, ![R, K]⟩ : Shape).Idx → EReal) (r : Fin R) (k : Fin K) :
    nat2 A r.val k.val = A (ix2 r k) := dif_pos ⟨r.isLt, k.isLt⟩

/-- For ANY six arrays: the whole-row sums read through the total functions, combined by the two scales, are the
    result function at that row and column. -/
theorem mixRC_nat {M K N : Nat} (A : (⟨2, ![M, K]⟩ : Shape).Idx → EReal) (B : (⟨2, ![N, K]⟩ : Shape).Idx → EReal)
    (C : (⟨2, ![M, K]⟩ : Shape).Idx → EReal) (D : (⟨2, ![N, K]⟩ : Shape).Idx → EReal)
    (RS : (⟨2, ![M, 1]⟩ : Shape).Idx → EReal) (CS : (⟨2, ![1, N]⟩ : Shape).Idx → EReal) (r s : ℕ) (hr : r < M) (hs : s < N) :
    (∑ x : Fin K, nat2 A r x.val * nat2 B s x.val) + (∑ x : Fin K, nat2 C r x.val * nat2 D s x.val) * nat2 RS r 0 * nat2 CS 0 s
      = Cert.Mix.mixRC A B C D RS CS (ix2 (⟨r, hr⟩ : Fin M) (⟨s, hs⟩ : Fin N)) := by
  rw [Cert.Mix.mixRC_apply]
  have eA : ∀ x : Fin K, nat2 A r x.val = A (ix2 (⟨r, hr⟩ : Fin M) x) := fun x => nat2_fin A ⟨r, hr⟩ x
  have eB : ∀ x : Fin K, nat2 B s x.val = B (ix2 (⟨s, hs⟩ : Fin N) x) := fun x => nat2_fin B ⟨s, hs⟩ x
  have eC : ∀ x : Fin K, nat2 C r x.val = C (ix2 (⟨r, hr⟩ : Fin M) x) := fun x => nat2_fin C ⟨r, hr⟩ x
  have eD : ∀ x : Fin K, nat2 D s x.val = D (ix2 (⟨s, hs⟩ : Fin N) x) := fun x => nat2_fin D ⟨s, hs⟩ x
  have eR : nat2 RS r 0 = RS (ix2 (⟨r, hr⟩ : Fin M) (0 : Fin 1)) := nat2_fin RS ⟨r, hr⟩ (0 : Fin 1)
  have eS : nat2 CS 0 s = CS (ix2 (0 : Fin 1) (⟨s, hs⟩ : Fin N)) := nat2_fin CS (0 : Fin 1) ⟨s, hs⟩
  simp only [eA, eB, eC, eD, eR, eS]

variable (m : (ℓ : Loc nD τ sig) → Buf (Elt Ideal) ℓ) (ρ : Dev nD → PrngReg)

/-- The result array as one function of the six arrays the region finds. -/
def outArr (c : Dev nD) : S8192x11008.Idx → EReal :=
  Cert.Mix.mixRC (arrA m c) (arrB m c) (arrC m c) (arrD m c) (arrRS m c) (arrCS m c)

/-- The output window's block at point t, of ANY contents G of the result array, at (p, q). -/
theorem read_out (c : Dev nD) (G : Buf (Elt Ideal) ((c : Thread nD τ).loc main_v43)) (t : Fin cfg0.N) (p : Fin 2048) (q : Fin 256)
    (hr : t.val / 172 * 2048 + p.val < 8192) (hs : t.val / 4 % 43 * 256 + q.val < 11008) :
    ((cfg0.win 6).blk t).view.read (Elt Ideal) G (ix2 p q)
      = (G : S8192x11008.Idx → EReal) (ix2 (⟨t.val / 172 * 2048 + p.val, hr⟩ : Fin 8192) (⟨t.val / 4 % 43 * 256 + q.val, hs⟩ : Fin 11008)) := by
  obtain ⟨e0, e1⟩ := idx6 t
  rw [View.read_apply]
  show G (((cfg0.win 6).blk t).view.emb (ix2 p q)) = G _
  refine congrArg G (funext fun a => Fin.ext ?_)
  match a with
  | ⟨0, _⟩ => show win0_6.index t (0 : Fin 2) * 2048 + 1 * p.val = t.val / 172 * 2048 + p.val; rw [e0]; omega
  | ⟨1, _⟩ => show win0_6.index t (1 : Fin 2) * 256 + 1 * q.val = t.val / 4 % 43 * 256 + q.val; rw [e1]; omega

/-- What a point with k = 3 writes back is its block of that function. -/
theorem flushed_out (c : Dev nD) (t : Fin cfg0.N) (hf : (cfg0.win 6).flush t = true) :
    (dats m 0 c).flushed 6 t = ((cfg0.win 6).blk t).view.read (Elt Ideal) (outArr m c) := by
  have h3 : t.val % 4 = 3 := (flush0_6 t).mp hf
  have ht := t_lt t
  show (cfg0.win 6).cut (grid0.coords t) ((dats m 0 c).after 6 t) = _
  rw [after0_6]
  funext j
  obtain ⟨p, q, rfl⟩ : ∃ (p : Fin 2048) (q : Fin 256), j = ix2 p q := ⟨j 0, j 1, eq_ix2 (n0 := 2048) (n1 := 256) j⟩
  have hr : t.val / 172 * 2048 + p.val < 8192 := by omega
  have hs : t.val / 4 % 43 * 256 + q.val < 11008 := by omega
  rw [read_out c (outArr m c) t p q hr hs]
  show (outsAt0 m c t.val t.isLt).1 (ix2 p q) = _
  rw [outblk_apply m c t h3 p q]
  unfold outArr
  exact mixRC_nat (arrA m c) (arrB m c) (arrC m c) (arrD m c) (arrRS m c) (arrCS m c) _ _ hr hs

-- from here on the result function is used as a whole, never opened
attribute [local irreducible] outArr

/-- An index of the result array is in point t's block iff each coordinate is in the block's range on its axis. -/
theorem mem_blk_out (t : Fin cfg0.N) (i : S8192x11008.Idx) :
    i ∈ ((cfg0.win 6).blk t).view.set ↔ ∀ a : Fin 2, win0_6.index t a * S2048x256.size a ≤ (i a).val ∧ (i a).val < win0_6.index t a * S2048x256.size a + S2048x256.size a := by
  show i ∈ ((View.whole main_v43).slice (win0_6.rect t)).set ↔ _
  rw [View.set_slice_whole, Rect.mem_set_unit]
  exact Iff.rfl

/-- Every index of the result array is in the block of a point that writes back: the k = 3 point of its (i, j). -/
theorem cover_out (i : S8192x11008.Idx) : ∃ t : Fin cfg0.N, (cfg0.win 6).flush t = true ∧ i ∈ ((cfg0.win 6).blk t).view.set := by
  have h0 : (i 0).val < 8192 := (i 0).isLt
  have h1 : (i 1).val < 11008 := (i 1).isLt
  have hN : cfg0.N = 688 := N_0
  let t : Fin cfg0.N := ⟨((i 0).val / 2048 * 43 + (i 1).val / 256) * 4 + 3, by rw [hN]; omega⟩
  have hv : t.val = ((i 0).val / 2048 * 43 + (i 1).val / 256) * 4 + 3 := rfl
  obtain ⟨e0, e1⟩ := idx6 t
  refine ⟨t, (flush0_6 t).mpr (by rw [hv]; omega), ?_⟩
  rw [mem_blk_out]
  intro a
  match a with
  | ⟨0, _⟩ => show win0_6.index t (0 : Fin 2) * 2048 ≤ (i 0).val ∧ (i 0).val < win0_6.index t (0 : Fin 2) * 2048 + 2048; rw [e0, hv]; omega
  | ⟨1, _⟩ => show win0_6.index t (1 : Fin 2) * 256 ≤ (i 1).val ∧ (i 1).val < win0_6.index t (1 : Fin 2) * 256 + 256; rw [e1, hv]; omega

/-- After the region the result array holds that function. -/
theorem final_out (c : Dev nD) : (dats m 0 c).arrAt 6 cfg0.N = outArr m c :=
  (dats m 0 c).arrAt_eq_of_cover 6 (outArr m c) (flushed_out m c) cover_out

/-- The host tail: the one operation after the region reshapes the result array, whatever contents G it ends with. -/
theorem tail_of (c : Dev nD) (G : Buf (Elt Ideal) ((c : Thread nD τ).loc main_v43)) (hG : (dats m 0 c).arrAt 6 cfg0.N = G) :
    Pipeline.afterTail₀ cfgs (dats m) 0 (V0 m) [hostOps1] c main_v44
      = shapeCast S4x2048x11008 (G : S8192x11008.Idx → EReal) shapeCasts_S8192x11008_S4x2048x11008 := by
  unfold Pipeline.afterTail₀
  show StableHlo.after hostOps1 _ (Proc.devRef .tc main_v44) = _
  after_results
  rw [(Pipeline.withArrays_arr spec0 launch0.win.arr_inj c _ _ 6).trans hG]
  rfl

theorem tail_out (c : Dev nD) :
    Pipeline.afterTail₀ cfgs (dats m) 0 (V0 m) [hostOps1] c main_v44
      = shapeCast S4x2048x11008 (outArr m c) shapeCasts_S8192x11008_S4x2048x11008 :=
  tail_of m c (outArr m c) (final_out m c)

/-- The run, read: the result at the reshape of that function, the arguments unchanged. -/
theorem run : θ_run defs (onTc (τ := τ) (main (F := Ideal))) ⟨m, fun _ => 0, ρ⟩ fun r => ∀ c : Dev nD,
      r.2.mem ((c.tc : Thread nD τ).loc main_v44) = shapeCast S4x2048x11008 (outArr m c) shapeCasts_S8192x11008_S4x2048x11008
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v44 (Pipeline.mem_restRefs_of main_v44 (by decide) (by decide))).trans (tail_out m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Val

end
-- ==== Proof.KernelHost.lean ====
/-
  The six arrays the kernel's region reads, from the host lines before it. The region's four matrix operands are the host's
  four prepared f32 arrays narrowed to bf16, and its two scale operands are the host's row-scale and column-scale vectors
  reshaped to a column and a row. Each fact is about ONE host operation: its result, as the region finds it, is the operation
  applied to its operand as the region finds it — a buffer is written once, and read only after it is written.
-/
import proofs.«107277_j49220325212290_1_alg».proof.Proof.Gen.KernelIdeal.Frame
import Idealize.ShloMosaic.Lib.StableHlo.Run

noncomputable section

namespace Cert.KernelIdeal.HostVal

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

set_option maxRecDepth 8192 in
set_option maxHeartbeats 4000000 in
/-- The outlier activations, narrowed. -/
theorem opA : V m c main_v37 = truncf (F := F) (s := S8192x4096) (φ := .f32) .bf16 (V m c main_v15) bitsLt_bf16_f32 := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

set_option maxRecDepth 8192 in
set_option maxHeartbeats 4000000 in
/-- The dequantized outlier weights, narrowed. -/
theorem opB : V m c main_v38 = truncf (F := F) (s := S11008x4096) (φ := .f32) .bf16 (V m c main_v24) bitsLt_bf16_f32 := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

set_option maxRecDepth 8192 in
set_option maxHeartbeats 4000000 in
/-- The quantized activations, narrowed. -/
theorem opC : V m c main_v39 = truncf (F := F) (s := S8192x4096) (φ := .f32) .bf16 (V m c main_v36) bitsLt_bf16_f32 := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

set_option maxRecDepth 8192 in
set_option maxHeartbeats 4000000 in
/-- The quantized weights, narrowed. -/
theorem opD : V m c main_v40 = truncf (F := F) (s := S11008x4096) (φ := .f32) .bf16 (V m c main_v26) bitsLt_bf16_f32 := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

set_option maxRecDepth 8192 in
set_option maxHeartbeats 4000000 in
/-- The per-row scale as a column. -/
theorem opRS : V m c main_v41 = shapeCast S8192x1 (V m c main_v32) shapeCasts_S8192_S8192x1 := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

set_option maxRecDepth 8192 in
set_option maxHeartbeats 4000000 in
/-- The per-column scale as a row. -/
theorem opCS : V m c main_v42 = shapeCast S1x11008 (V m c main_v5) shapeCasts_S11008_S1x11008 := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

end Cert.KernelIdeal.HostVal

end
-- ==== Proof.RefRun.lean ====
/-
  The reference program's run, stated over the contents its buffers end with. @main is a straight line of 67 host
  operations, so every weakly fair execution terminates with every buffer at the operations' results folded, in order, over
  the launch contents; RV names that final contents, buffer by buffer. Read off the fold:
    * the three arguments are never written;
    * the result is the reshape of  ((q_x · q_wᵀ) · row scale) · column scale + x_out · w_outᵀ  of six earlier buffers —
      the quantized activations and weights, the per-row and per-column scales, the outlier activations and the dequantized
      outlier weights — each read after the whole line: a buffer is written once and read only afterwards, so an
      operation's result after the line is its function of its operands after the line.
-/
import proofs.«107277_j49220325212290_1_alg».proof.Proof.RefOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.Value (ops main_eq scopedRefs_eq scopedSems_eq ops_sub)

variable {F : FTy → Type} [FloatOps F]

/-- What buffer b holds after @main: the operations' results folded over the launch contents. -/
abbrev RV (m : (ℓ : Loc nD τ sig) → Buf (Elt F) ℓ) (c : Dev nD) (b : Ref sig .tc) : Buf (Elt F) ((c.tc : Thread nD τ).loc b) :=
  StableHlo.after (ops (F := F)) (launchContents m c) (Proc.devRef .tc b)

set_option maxRecDepth 8192 in
set_option maxHeartbeats 4000000 in
/-- Every weakly fair execution of @main terminates with the result buffer at RV and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = RV m c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨h c main_v48,
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

variable (m : (ℓ : Loc nD τ sig) → Buf (Elt F) ℓ) (c : Dev nD)

set_option maxRecDepth 8192 in
set_option maxHeartbeats 4000000 in
/-- The result, from the six buffers the last twelve operations consume. -/
theorem rv_result :
    RV m c main_v48
      = shapeCast S4x2048x11008
          (addf (mulf (mulf (Host.dotGeneral dot_S8192x4096_S4096x11008_S8192x11008_1_0_0_1_n_n none (RV m c main_v38)
                    (transpose S4096x11008 [1, 0] (RV m c main_v26) transposes_S11008x4096_S4096x11008_1_0))
                  (broadcastInDim S8192x11008 ![0, 1] bcast_S8192x1_S8192x11008_0_1 (broadcastInDim S8192x1 ![0] bcast_S8192_S8192x1_0 (RV m c main_v34))))
                (broadcastInDim S8192x11008 ![0, 1] bcast_S1x11008_S8192x11008_0_1 (broadcastInDim S1x11008 ![1] bcast_S11008_S1x11008_1 (RV m c main_v5))))
            (Host.dotGeneral dot_S8192x4096_S4096x11008_S8192x11008_1_0_0_1_n_n none (RV m c main_v15)
              (transpose S4096x11008 [1, 0] (RV m c main_v24) transposes_S11008x4096_S4096x11008_1_0)))
          shapeCasts_S8192x11008_S4x2048x11008 := by
  unfold RV
  after_results_simp <;> rfl

end Cert.ReferenceIdeal.RefRun

end
-- ==== Proof.Bridge.lean ====
/-
  The two programs prepare the same six arrays. Both run, line for line, the same preparation on their arguments — the
  column mask of the activations above sigma, the weights quantized by their column scale, the outlier and the
  non-outlier parts, the per-row scale, the quantized activations. So when the two memories agree on the three
  arguments, each prepared buffer of the reference, read after its whole line, is the kernel's corresponding buffer as
  its region finds it: the two are one expression of the arguments.
-/
import proofs.«107277_j49220325212290_1_alg».proof.Proof.Gen.KernelIdeal.Frame
import proofs.«107277_j49220325212290_1_alg».proof.Proof.RefRun
import Idealize.ShloMosaic.Lib.StableHlo.Run

noncomputable section

namespace Cert.Bridge

open Idealize.ShloMosaic Idealize.ShloMosaic.TcCoe Idealize.SL.Sem Idealize.ShloMosaic.StableHlo

variable {F : FTy → Type} [FloatOps F]
variable (m : (ℓ : Loc Cert.KernelIdeal.nD Cert.KernelIdeal.τ Cert.KernelIdeal.sig) → Buf (Elt F) ℓ)
variable (m' : (ℓ : Loc Cert.ReferenceIdeal.nD Cert.ReferenceIdeal.τ Cert.ReferenceIdeal.sig) → Buf (Elt F) ℓ)
variable (c : Dev Cert.KernelIdeal.nD)

set_option maxRecDepth 8192 in
set_option maxHeartbeats 4000000 in
/-- The per-column scale. -/
theorem pre_colscale (h1 : launchContents m' c (Proc.devRef .tc Cert.ReferenceIdeal.main_arg1) = m (c, Proc.devRef .tc Cert.KernelIdeal.main_arg1)) :
    Cert.ReferenceIdeal.RefRun.RV m' c Cert.ReferenceIdeal.main_v5 = Cert.KernelIdeal.Gen.V m c Cert.KernelIdeal.main_v5 := by
  unfold Cert.ReferenceIdeal.RefRun.RV
  dsimp only [Cert.KernelIdeal.Gen.V, Cert.KernelIdeal.Gen.V0]
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, List.flatten_cons, List.flatten_nil, List.append_nil, List.cons_append, List.nil_append]
  after_results_simp
  rw [h1]

set_option maxRecDepth 8192 in
set_option maxHeartbeats 4000000 in
/-- The outlier activations. -/
theorem pre_xout (h0 : launchContents m' c (Proc.devRef .tc Cert.ReferenceIdeal.main_arg0) = m (c, Proc.devRef .tc Cert.KernelIdeal.main_arg0)) (h2 : launchContents m' c (Proc.devRef .tc Cert.ReferenceIdeal.main_arg2) = m (c, Proc.devRef .tc Cert.KernelIdeal.main_arg2)) :
    Cert.ReferenceIdeal.RefRun.RV m' c Cert.ReferenceIdeal.main_v15 = Cert.KernelIdeal.Gen.V m c Cert.KernelIdeal.main_v15 := by
  unfold Cert.ReferenceIdeal.RefRun.RV
  dsimp only [Cert.KernelIdeal.Gen.V, Cert.KernelIdeal.Gen.V0]
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, List.flatten_cons, List.flatten_nil, List.append_nil, List.cons_append, List.nil_append]
  after_results_simp
  rw [h0, h2]
  rfl

set_option maxRecDepth 8192 in
set_option maxHeartbeats 4000000 in
/-- The dequantized outlier weights. -/
theorem pre_wout (h0 : launchContents m' c (Proc.devRef .tc Cert.ReferenceIdeal.main_arg0) = m (c, Proc.devRef .tc Cert.KernelIdeal.main_arg0)) (h1 : launchContents m' c (Proc.devRef .tc Cert.ReferenceIdeal.main_arg1) = m (c, Proc.devRef .tc Cert.KernelIdeal.main_arg1)) (h2 : launchContents m' c (Proc.devRef .tc Cert.ReferenceIdeal.main_arg2) = m (c, Proc.devRef .tc Cert.KernelIdeal.main_arg2)) :
    Cert.ReferenceIdeal.RefRun.RV m' c Cert.ReferenceIdeal.main_v24 = Cert.KernelIdeal.Gen.V m c Cert.KernelIdeal.main_v24 := by
  unfold Cert.ReferenceIdeal.RefRun.RV
  dsimp only [Cert.KernelIdeal.Gen.V, Cert.KernelIdeal.Gen.V0]
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, List.flatten_cons, List.flatten_nil, List.append_nil, List.cons_append, List.nil_append]
  after_results_simp
  rw [h0, h1, h2]
  rfl

set_option maxRecDepth 8192 in
set_option maxHeartbeats 4000000 in
/-- The quantized weights, outlier columns zeroed. -/
theorem pre_qw (h0 : launchContents m' c (Proc.devRef .tc Cert.ReferenceIdeal.main_arg0) = m (c, Proc.devRef .tc Cert.KernelIdeal.main_arg0)) (h1 : launchContents m' c (Proc.devRef .tc Cert.ReferenceIdeal.main_arg1) = m (c, Proc.devRef .tc Cert.KernelIdeal.main_arg1)) (h2 : launchContents m' c (Proc.devRef .tc Cert.ReferenceIdeal.main_arg2) = m (c, Proc.devRef .tc Cert.KernelIdeal.main_arg2)) :
    Cert.ReferenceIdeal.RefRun.RV m' c Cert.ReferenceIdeal.main_v26 = Cert.KernelIdeal.Gen.V m c Cert.KernelIdeal.main_v26 := by
  unfold Cert.ReferenceIdeal.RefRun.RV
  dsimp only [Cert.KernelIdeal.Gen.V, Cert.KernelIdeal.Gen.V0]
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, List.flatten_cons, List.flatten_nil, List.append_nil, List.cons_append, List.nil_append]
  after_results_simp
  rw [h0, h1, h2]
  rfl

set_option maxRecDepth 8192 in
set_option maxHeartbeats 4000000 in
/-- The per-row scale. -/
theorem pre_rowscale (h0 : launchContents m' c (Proc.devRef .tc Cert.ReferenceIdeal.main_arg0) = m (c, Proc.devRef .tc Cert.KernelIdeal.main_arg0)) (h2 : launchContents m' c (Proc.devRef .tc Cert.ReferenceIdeal.main_arg2) = m (c, Proc.devRef .tc Cert.KernelIdeal.main_arg2)) :
    Cert.ReferenceIdeal.RefRun.RV m' c Cert.ReferenceIdeal.main_v34 = Cert.KernelIdeal.Gen.V m c Cert.KernelIdeal.main_v32 := by
  unfold Cert.ReferenceIdeal.RefRun.RV
  dsimp only [Cert.KernelIdeal.Gen.V, Cert.KernelIdeal.Gen.V0]
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, List.flatten_cons, List.flatten_nil, List.append_nil, List.cons_append, List.nil_append]
  after_results_simp
  rw [h0, h2]
  rfl

set_option maxRecDepth 8192 in
set_option maxHeartbeats 4000000 in
/-- The quantized activations. -/
theorem pre_qx (h0 : launchContents m' c (Proc.devRef .tc Cert.ReferenceIdeal.main_arg0) = m (c, Proc.devRef .tc Cert.KernelIdeal.main_arg0)) (h2 : launchContents m' c (Proc.devRef .tc Cert.ReferenceIdeal.main_arg2) = m (c, Proc.devRef .tc Cert.KernelIdeal.main_arg2)) :
    Cert.ReferenceIdeal.RefRun.RV m' c Cert.ReferenceIdeal.main_v38 = Cert.KernelIdeal.Gen.V m c Cert.KernelIdeal.main_v36 := by
  unfold Cert.ReferenceIdeal.RefRun.RV
  dsimp only [Cert.KernelIdeal.Gen.V, Cert.KernelIdeal.Gen.V0]
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, List.flatten_cons, List.flatten_nil, List.append_nil, List.cons_append, List.nil_append]
  after_results_simp
  rw [h0, h2]
  rfl

end Cert.Bridge

end
-- ==== Proof.Agree.lean ====
/-
  The two results are one array. Over the extended reals:
    * the kernel's result function of the six arrays its region reads is  mix  of the host's six prepared f32 buffers —
      the four matrix operands are those buffers narrowed to bf16, and a change of float format is the identity on the
      extended reals; the two scale operands are the scale vectors reshaped to a column and a row, which mix reads back
      as the vectors;
    * the reference's result is the reshape of  ((q_x · q_wᵀ) · row scale) · column scale + x_out · w_outᵀ  of its own six
      prepared buffers, which is  mix  of them by commutativity of +;
    * the prepared buffers of the two programs are equal when the arguments are.
  So the reference's result buffer is the reshape of the kernel's result function.
-/
import proofs.«107277_j49220325212290_1_alg».proof.Proof.KernelRun
import proofs.«107277_j49220325212290_1_alg».proof.Proof.KernelHost
import proofs.«107277_j49220325212290_1_alg».proof.Proof.Bridge
import proofs.«107277_j49220325212290_1_alg».proof.Proof.MixSpec

set_option maxRecDepth 16384

noncomputable section

namespace Cert.Agree

open Idealize.ShloMosaic Idealize.ShloMosaic.TcCoe Idealize.SL.Sem Idealize.ShloMosaic.StableHlo Idealize.ShloMosaic.ValueIdx

/-- Narrowing the float format is the identity on the extended reals. -/
theorem truncf_ideal {s : Shape} {φ ψ : FTy} (x : FVec Ideal s φ) (h : ψ.bits < φ.bits) : truncf (F := Ideal) ψ x h = x := rfl

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The kernel's result function is mix of the host's six prepared buffers. -/
theorem kernel_out :
    Cert.KernelIdeal.Val.outArr m c
      = Cert.Mix.mix (M := 8192) (K := 4096) (N := 11008) (Cert.KernelIdeal.Gen.V m c Cert.KernelIdeal.main_v15) (Cert.KernelIdeal.Gen.V m c Cert.KernelIdeal.main_v24) (Cert.KernelIdeal.Gen.V m c Cert.KernelIdeal.main_v36) (Cert.KernelIdeal.Gen.V m c Cert.KernelIdeal.main_v26) (Cert.KernelIdeal.Gen.V m c Cert.KernelIdeal.main_v32) (Cert.KernelIdeal.Gen.V m c Cert.KernelIdeal.main_v5) := by
  unfold Cert.KernelIdeal.Val.outArr
  dsimp only [Cert.KernelIdeal.Val.arrA, Cert.KernelIdeal.Val.arrB, Cert.KernelIdeal.Val.arrC, Cert.KernelIdeal.Val.arrD, Cert.KernelIdeal.Val.arrRS, Cert.KernelIdeal.Val.arrCS]
  rw [Cert.KernelIdeal.HostVal.opA m c, Cert.KernelIdeal.HostVal.opB m c, Cert.KernelIdeal.HostVal.opC m c, Cert.KernelIdeal.HostVal.opD m c,
    Cert.KernelIdeal.HostVal.opRS m c, Cert.KernelIdeal.HostVal.opCS m c]
  generalize (Cert.KernelIdeal.Gen.V m c Cert.KernelIdeal.main_v15) = a
  generalize (Cert.KernelIdeal.Gen.V m c Cert.KernelIdeal.main_v24) = b
  generalize (Cert.KernelIdeal.Gen.V m c Cert.KernelIdeal.main_v36) = q
  generalize (Cert.KernelIdeal.Gen.V m c Cert.KernelIdeal.main_v26) = d
  generalize (Cert.KernelIdeal.Gen.V m c Cert.KernelIdeal.main_v32) = rs
  generalize (Cert.KernelIdeal.Gen.V m c Cert.KernelIdeal.main_v5) = cs
  rw [truncf_ideal, truncf_ideal, truncf_ideal, truncf_ideal]
  exact Cert.Mix.mixRC_casts (M := 8192) (K := 4096) (N := 11008) a b q d rs cs Cert.KernelIdeal.Gen.shapeCasts_S8192_S8192x1 Cert.KernelIdeal.Gen.shapeCasts_S11008_S1x11008

/-- The reference's result buffer is the reshape of mix of its six prepared buffers. -/
theorem ref_out :
    Cert.ReferenceIdeal.RefRun.RV m' c Cert.ReferenceIdeal.main_v48
      = shapeCast Cert.ReferenceIdeal.S4x2048x11008
          (Cert.Mix.mix (M := 8192) (K := 4096) (N := 11008) (Cert.ReferenceIdeal.RefRun.RV m' c Cert.ReferenceIdeal.main_v15) (Cert.ReferenceIdeal.RefRun.RV m' c Cert.ReferenceIdeal.main_v24) (Cert.ReferenceIdeal.RefRun.RV m' c Cert.ReferenceIdeal.main_v38) (Cert.ReferenceIdeal.RefRun.RV m' c Cert.ReferenceIdeal.main_v26) (Cert.ReferenceIdeal.RefRun.RV m' c Cert.ReferenceIdeal.main_v34) (Cert.ReferenceIdeal.RefRun.RV m' c Cert.ReferenceIdeal.main_v5))
          Cert.ReferenceIdeal.Gen.shapeCasts_S8192x11008_S4x2048x11008 :=
  (Cert.ReferenceIdeal.RefRun.rv_result (F := Ideal) m' c).trans
    (congrArg (fun X => shapeCast Cert.ReferenceIdeal.S4x2048x11008 X Cert.ReferenceIdeal.Gen.shapeCasts_S8192x11008_S4x2048x11008)
      (Cert.Mix.host_mix (M := 8192) (K := 4096) (N := 11008) Cert.ReferenceIdeal.dot_S8192x4096_S4096x11008_S8192x11008_1_0_0_1_n_n rfl rfl rfl rfl rfl rfl none
        (Cert.ReferenceIdeal.RefRun.RV m' c Cert.ReferenceIdeal.main_v15) (Cert.ReferenceIdeal.RefRun.RV m' c Cert.ReferenceIdeal.main_v24) (Cert.ReferenceIdeal.RefRun.RV m' c Cert.ReferenceIdeal.main_v38) (Cert.ReferenceIdeal.RefRun.RV m' c Cert.ReferenceIdeal.main_v26) (Cert.ReferenceIdeal.RefRun.RV m' c Cert.ReferenceIdeal.main_v34) (Cert.ReferenceIdeal.RefRun.RV m' c Cert.ReferenceIdeal.main_v5)
        Cert.ReferenceIdeal.Gen.transposes_S11008x4096_S4096x11008_1_0 Cert.ReferenceIdeal.Gen.bcast_S8192_S8192x1_0 Cert.ReferenceIdeal.Gen.bcast_S8192x1_S8192x11008_0_1
        Cert.ReferenceIdeal.Gen.bcast_S11008_S1x11008_1 Cert.ReferenceIdeal.Gen.bcast_S1x11008_S8192x11008_0_1))

/-- With the arguments equal, the reference's result buffer is the reshape of the kernel's result function. -/
theorem results_agree
    (h0 : launchContents m' c (Proc.devRef .tc Cert.ReferenceIdeal.main_arg0) = m (c, Proc.devRef .tc Cert.KernelIdeal.main_arg0))
    (h1 : launchContents m' c (Proc.devRef .tc Cert.ReferenceIdeal.main_arg1) = m (c, Proc.devRef .tc Cert.KernelIdeal.main_arg1))
    (h2 : launchContents m' c (Proc.devRef .tc Cert.ReferenceIdeal.main_arg2) = m (c, Proc.devRef .tc Cert.KernelIdeal.main_arg2)) :
    Cert.ReferenceIdeal.RefRun.RV m' c Cert.ReferenceIdeal.main_v48
      = shapeCast Cert.KernelIdeal.S4x2048x11008 (Cert.KernelIdeal.Val.outArr m c) Cert.KernelIdeal.Gen.shapeCasts_S8192x11008_S4x2048x11008 := by
  rw [ref_out, kernel_out,
    Cert.Bridge.pre_xout m m' c h0 h2, Cert.Bridge.pre_wout m m' c h0 h1 h2, Cert.Bridge.pre_qx m m' c h0 h2,
    Cert.Bridge.pre_qw m m' c h0 h1 h2, Cert.Bridge.pre_rowscale m m' c h0 h2, Cert.Bridge.pre_colscale m m' c h1]

end Cert.Agree

end
-- ==== Proof.lean ====
/-
  The quantized matrix product with an exact outlier correction, as a blocked kernel, against its jnp reference, over the
  extended reals.

  Both programs first prepare, by the same host lines, six arrays from x, the weight and sigma: the outlier activations
  and the dequantized outlier weights (the columns of x holding a magnitude above sigma), the quantized activations and
  weights (everything else, divided by a per-row and a per-column scale and rounded), and the two scales. The result is

      mix (r, n) = ∑ₖ x_out (r, k) · w_out (n, k) + ((∑ₖ q_x (r, k) · q_w (n, k)) · rowscale r) · colscale n.

  The reference computes the second term, then adds the first: mix, by commutativity of +.
  The kernel walks a 4 · 43 · 4 grid. For each output block (i, j) it adds the two block products over four runs of 1024
  contraction columns into two accumulators, reset at the first run, and after the fourth run stores
  out + (raw · rowscale) · colscale. The runs added one after another from zero are the whole sums over the 4096
  columns — regrouping a sum in a commutative monoid, so no finiteness of the inputs is used anywhere — and the blocks
  tile the result. A change of float format (the bf16 operands) is the identity on the extended reals.

  The three frames: the kernel's two are its generated frame; the reference's is its run with the result dropped.
  The ideal pass rewrote nothing in the kernel, so the idealization claim is trivially true.
-/
import proofs.«107277_j49220325212290_1_alg».proof.Defs
import proofs.«107277_j49220325212290_1_alg».proof.Proof.Gen.Kernel
import proofs.«107277_j49220325212290_1_alg».proof.Proof.Gen.Kernel.Skeleton
import proofs.«107277_j49220325212290_1_alg».proof.Proof.Gen.Kernel.Launch
import proofs.«107277_j49220325212290_1_alg».proof.Proof.Gen.Kernel.Points
import proofs.«107277_j49220325212290_1_alg».proof.Proof.Gen.Kernel.Frame
import proofs.«107277_j49220325212290_1_alg».proof.Proof.Gen.KernelIdeal
import proofs.«107277_j49220325212290_1_alg».proof.Proof.Gen.KernelIdeal.Skeleton
import proofs.«107277_j49220325212290_1_alg».proof.Proof.Gen.KernelIdeal.Launch
import proofs.«107277_j49220325212290_1_alg».proof.Proof.Gen.KernelIdeal.Points
import proofs.«107277_j49220325212290_1_alg».proof.Proof.Gen.KernelIdeal.Frame
import proofs.«107277_j49220325212290_1_alg».proof.Proof.Gen.ReferenceIdeal
import proofs.«107277_j49220325212290_1_alg».proof.Proof.Gen.Pre_finite_inputs
import proofs.«107277_j49220325212290_1_alg».proof.Proof.Agree
import Idealize.ShloMosaic.Adequacy
import Idealize.ShloMosaic.Init

noncomputable section

namespace Cert.Proof

open Idealize.ShloMosaic Idealize.SL.Sem

/-- The reference runs and leaves its arguments as they were: its run, with the result dropped. -/
theorem frame_reference [hReferenceIdeal : Cert.ReferenceIdeal.Facts] [hPre_finite_inputs : Cert.Pre_finite_inputs.Facts] :
    Cert.frame_ReferenceIdeal := fun m ρ _ =>
  (θ_run Cert.ReferenceIdeal.defs _ _).mono (fun _ h c => (h c).2) (Cert.ReferenceIdeal.RefRun.run (F := Ideal) m ρ)

/-- Both idealized programs run, from memories that agree on the arguments, to the same result: the reshape of mix of
    the six prepared arrays. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' _ hagree
  refine ⟨fun c => shapeCast Cert.KernelIdeal.S4x2048x11008 (Cert.KernelIdeal.Val.outArr m c) Cert.KernelIdeal.Gen.shapeCasts_S8192x11008_S4x2048x11008,
    Cert.KernelIdeal.Val.run m ρ, ?_⟩
  refine (θ_run Cert.ReferenceIdeal.defs _ _).mono (fun _ h c => ⟨(h c).1.trans ?_, (h c).2⟩)
    (Cert.ReferenceIdeal.RefRun.run (F := Ideal) m' ρ')
  exact Cert.Agree.results_agree m m' c (hagree c).1 (hagree c).2.1 (hagree c).2.2

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
